-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x63x2048 : Shape := ⟨3, ![2048, 63, 2048]⟩
abbrev S63x63 : Shape := ⟨2, ![63, 63]⟩
abbrev S1024x2048 : Shape := ⟨2, ![1024, 2048]⟩
abbrev S1024 : Shape := ⟨1, ![1024]⟩
abbrev S300x1024 : Shape := ⟨2, ![300, 1024]⟩
abbrev S300 : Shape := ⟨1, ![300]⟩
abbrev S_ : Shape := ⟨0, ![]⟩

class Facts : Prop where
  bcast_S_S2048x63x2048 : S_.BroadcastsInDim S2048x63x2048 (![] : Fin 0 → Fin S2048x63x2048.rank)
  reducesTo_S2048x63x2048_S_d0_1_2 : S2048x63x2048.ReducesTo [0, 1, 2] S_
  h_S_ : 0 < S_.numel
  bcast_S_S63x63 : S_.BroadcastsInDim S63x63 (![] : Fin 0 → Fin S63x63.rank)
  reducesTo_S63x63_S_d0_1 : S63x63.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S300x1024 : S_.BroadcastsInDim S300x1024 (![] : Fin 0 → Fin S300x1024.rank)
  reducesTo_S300x1024_S_d0_1 : S300x1024.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S300x1024 .f32) (main_arg5 : FVec F S300 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S300x1024 .f32 := Host.absf main_arg4
  let main_cst_6 : FVec F S_ .f32 := constant S_ .f32 0x7F800000#32
  let main_v20 : FVec F S300x1024 .f32 := broadcastInDim S300x1024 ![] bcast_S_S300x1024 main_cst_6
  let main_v21 : IVec S300x1024 1 := cmpf .olt main_v19 main_v20
  let main_c_7 : IVec S_ 1 := constantI S_ 1 1#1
  let main_v22 : IVec S_ 1 := (fun x v => Host.reduce IntOp.andi x v reducesTo_S300x1024_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S2048x63x2048 .f32) (main_arg1 : FVec F S63x63 .f32) (main_arg2 : FVec F S1024x2048 .f32) (main_arg3 : FVec F S1024 .f32) (main_arg4 : FVec F S300x1024 .f32) (main_arg5 : FVec F S300 .f32) : IVec S_ 1 :=
  let main_v0 : FVec F S2048x63x2048 .f32 := Host.absf main_arg0
  let main_cst : FVec F S_ .f32 := constant S_ .f32 0x7F800000#32
  let main_v1 : FVec F S2048x63x2048 .f32 := broadcastInDim S2048x63x2048 ![] bcast_S_S2048x63x2048 main_cst
  let main_v2 : IVec S2048x63x2048 1 := cmpf .olt main_v0 main_v1
  let main_c : IVec S_ 1 := constantI S_ 1 1#1
  let main_v3 : IVec S_ 1 := (fun x v => Host.reduce IntOp.andi x v reducesTo_S2048x63x2048_S_d0_1_2 h_S_) main_v2 main_c
  let main_v4 : FVec F S63x63 .f32 := Host.absf main_arg1
  let main_cst_0 : FVec F S_ .f32 := constant S_ .f32 0x7F800000#32
  let main_v5 : FVec F S63x63 .f32 := broadcastInDim S63x63 ![] bcast_S_S63x63 main_cst_0
  let main_v6 : IVec S63x63 1 := cmpf .olt main_v4 main_v5
  let main_c_1 : IVec S_ 1 := constantI S_ 1 1#1
  let main_v7 : IVec S_ 1 := (fun x v => Host.reduce IntOp.andi x v reducesTo_S63x63_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S2048x63x2048 : Shape := ⟨3, ![2048, 63, 2048]⟩
abbrev S63x63 : Shape := ⟨2, ![63, 63]⟩
abbrev S1024x2048 : Shape := ⟨2, ![1024, 2048]⟩
abbrev S1024 : Shape := ⟨1, ![1024]⟩
abbrev S300x1024 : Shape := ⟨2, ![300, 1024]⟩
abbrev S300 : Shape := ⟨1, ![300]⟩
abbrev S63x2048 : Shape := ⟨2, ![63, 2048]⟩
abbrev S32x63x2048 : Shape := ⟨3, ![32, 63, 2048]⟩
abbrev S2048x63 : Shape := ⟨2, ![2048, 63]⟩
abbrev S_ : Shape := ⟨0, ![]⟩
abbrev S63 : Shape := ⟨1, ![63]⟩
abbrev S63x1 : Shape := ⟨2, ![63, 1]⟩
abbrev S2048x1024 : Shape := ⟨2, ![2048, 1024]⟩
abbrev S63x1024 : Shape := ⟨2, ![63, 1024]⟩
abbrev S1x1024 : Shape := ⟨2, ![1, 1024]⟩
abbrev S1024x63 : Shape := ⟨2, ![1024, 63]⟩
abbrev S1024x300 : Shape := ⟨2, ![1024, 300]⟩
abbrev S63x300 : Shape := ⟨2, ![63, 300]⟩
abbrev S1x300 : Shape := ⟨2, ![1, 300]⟩
abbrev S300x63 : Shape := ⟨2, ![300, 63]⟩

abbrev nBuf : Space → Nat
  | .hbm => 103
  | .vmem => 4
  | .smem => 0
  | _ => 0

abbrev bufTy : (tb : Table) → Fin (tcTables nBuf tb) → BufTy
  | .hbm, ⟨0, _⟩ => ⟨S2048x63x2048, .f32⟩
  | .hbm, ⟨1, _⟩ => ⟨S63x63, .f32⟩
  | .hbm, ⟨2, _⟩ => ⟨S1024x2048, .f32⟩
  | .hbm, ⟨3, _⟩ => ⟨S1024, .f32⟩
  | .hbm, ⟨4, _⟩ => ⟨S300x1024, .f32⟩
  | .hbm, ⟨5, _⟩ => ⟨S300, .f32⟩
  | .hbm, ⟨6, _⟩ => ⟨S63x2048, .f32⟩
  | .hbm, ⟨7, _⟩ => ⟨S2048x63, .f32⟩
  | .hbm, ⟨8, _⟩ => ⟨S63x63, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S63x63, .f32⟩
  | .hbm, ⟨14, _⟩ => ⟨S63x63, .f32⟩
  | .hbm, ⟨15, _⟩ => ⟨S_, .f32⟩
  | .hbm, ⟨16, _⟩ => ⟨S63x63, .f32⟩
  | .hbm, ⟨17, _⟩ => ⟨S63x63, .f32⟩
  | .hbm, ⟨18, _⟩ => ⟨S63x63, .f32⟩
  | .hbm, ⟨19, _⟩ => ⟨S63x63, .i32⟩
  | .hbm, ⟨20, _⟩ => ⟨S63x63, .i32⟩
  | .hbm, ⟨21, _⟩ => ⟨S_, .i32⟩
  | .hbm, ⟨22, _⟩ => ⟨S63x63, .i32⟩
  | .hbm, ⟨23, _⟩ => ⟨S63x63, .i32⟩
  | .hbm, ⟨24, _⟩ => ⟨S63x63, .i1⟩
  | .hbm, ⟨25, _⟩ => ⟨S_, .f32⟩
  | .hbm, ⟨26, _⟩ => ⟨S63x63, .f32⟩
  | .hbm, ⟨27, _⟩ => ⟨S63x63, .f32⟩
  | .hbm, ⟨28, _⟩ => ⟨S_, .f32⟩
  | .hbm, ⟨29, _⟩ => ⟨S_, .f32⟩
  | .hbm, ⟨30, _⟩ => ⟨S63x63, .f32⟩
  | .hbm, ⟨31, _⟩ => ⟨S63x63, .f32⟩
  | .hbm, ⟨32, _⟩ => ⟨S63x63, .f32⟩
  | .hbm, ⟨33, _⟩ => ⟨S_, .f32⟩
  | .hbm, ⟨34, _⟩ => ⟨S63, .f32⟩
  | .hbm, ⟨35, _⟩ => ⟨S63x1, .f32⟩
  | .hbm, ⟨36, _⟩ => ⟨S_, .f32⟩
  | .hbm, ⟨37, _⟩ => ⟨S63x1, .f32⟩
  | .hbm, ⟨38, _⟩ => ⟨S63x1, .i1⟩
  | .hbm, ⟨39, _⟩ => ⟨S_, .f32⟩
  | .hbm, ⟨40, _⟩ => ⟨S63x1, .f32⟩
  | .hbm, ⟨41, _⟩ => ⟨S63x1, .f32⟩
  | .hbm, ⟨42, _⟩ => ⟨S63x63, .f32⟩
  | .hbm, ⟨43, _⟩ => ⟨S63x63, .f32⟩
  | .hbm, ⟨44, _⟩ => ⟨S2048x1024, .f32⟩
  | .hbm, ⟨45, _⟩ => ⟨S63x1024, .f32⟩
  | .hbm, ⟨46, _⟩ => ⟨S1x1024, .f32⟩
  | .hbm, ⟨47, _⟩ => ⟨S63x1024, .f32⟩
  | .hbm, ⟨48, _⟩ => ⟨S63x1024, .f32⟩
  | .hbm, ⟨49, _⟩ => ⟨S_, .f32⟩
  | .hbm, ⟨50, _⟩ => ⟨S63x1024, .f32⟩
  | .hbm, ⟨51, _⟩ => ⟨S63x1024, .f32⟩
  | .hbm, ⟨52, _⟩ => ⟨S1024x63, .f32⟩
  | .hbm, ⟨53, _⟩ => ⟨S63x1024, .f32⟩
  | .hbm, ⟨54, _⟩ => ⟨S63x1024, .f32⟩
  | .hbm, ⟨55, _⟩ => ⟨S1024x63, .f32⟩
  | .hbm, ⟨56, _⟩ => ⟨S63x63, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S63x63, .f32⟩
  | .hbm, ⟨62, _⟩ => ⟨S63x63, .f32⟩
  | .hbm, ⟨63, _⟩ => ⟨S_, .f32⟩
  | .hbm, ⟨64, _⟩ => ⟨S63x63, .f32⟩
  | .hbm, ⟨65, _⟩ => ⟨S63x63, .f32⟩
  | .hbm, ⟨66, _⟩ => ⟨S63x63, .f32⟩
  | .hbm, ⟨67, _⟩ => ⟨S63x63, .i32⟩
  | .hbm, ⟨68, _⟩ => ⟨S63x63, .i32⟩
  | .hbm, ⟨69, _⟩ => ⟨S_, .i32⟩
  | .hbm, ⟨70, _⟩ => ⟨S63x63, .i32⟩
  | .hbm, ⟨71, _⟩ => ⟨S63x63, .i32⟩
  | .hbm, ⟨72, _⟩ => ⟨S63x63, .i1⟩
  | .hbm, ⟨73, _⟩ => ⟨S_, .f32⟩
  | .hbm, ⟨74, _⟩ => ⟨S63x63, .f32⟩
  | .hbm, ⟨75, _⟩ => ⟨S63x63, .f32⟩
  | .hbm, ⟨76, _⟩ => ⟨S_, .f32⟩
  | .hbm, ⟨77, _⟩ => ⟨S_, .f32⟩
  | .hbm, ⟨78, _⟩ => ⟨S63x63, .f32⟩
  | .hbm, ⟨79, _⟩ => ⟨S63x63, .f32⟩
  | .hbm, ⟨80, _⟩ => ⟨S63x63, .f32⟩
  | .hbm, ⟨81, _⟩ => ⟨S_, .f32⟩
  | .hbm, ⟨82, _⟩ => ⟨S63, .f32⟩
  | .hbm, ⟨83, _⟩ => ⟨S63x1, .f32⟩
  | .hbm, ⟨84, _⟩ => ⟨S_, .f32⟩
  | .hbm, ⟨85, _⟩ => ⟨S63x1, .f32⟩
  | .hbm, ⟨86, _⟩ => ⟨S63x1, .i1⟩
  | .hbm, ⟨87, _⟩ => ⟨S_, .f32⟩
  | .hbm, ⟨88, _⟩ => ⟨S63x1, .f32⟩
  | .hbm, ⟨89, _⟩ => ⟨S63x1, .f32⟩
  | .hbm, ⟨90, _⟩ => ⟨S63x63, .f32⟩
  | .hbm, ⟨91, _⟩ => ⟨S63x63, .f32⟩
  | .hbm, ⟨92, _⟩ => ⟨S1024x300, .f32⟩
  | .hbm, ⟨93, _⟩ => ⟨S63x300, .f32⟩
  | .hbm, ⟨94, _⟩ => ⟨S1x300, .f32⟩
  | .hbm, ⟨95, _⟩ => ⟨S63x300, .f32⟩
  | .hbm, ⟨96, _⟩ => ⟨S63x300, .f32⟩
  | .hbm, ⟨97, _⟩ => ⟨S_, .f32⟩
  | .hbm, ⟨98, _⟩ => ⟨S63x300, .f32⟩
  | .hbm, ⟨99, _⟩ => ⟨S63x300, .f32⟩
  | .hbm, ⟨100, _⟩ => ⟨S300x63, .f32⟩
  | .hbm, ⟨101, _⟩ => ⟨S63x300, .f32⟩
  | .hbm, ⟨102, _⟩ => ⟨S63x300, .f32⟩
  | .local _ .vmem, ⟨0, _⟩ => ⟨S32x63x2048, .f32⟩
  | .local _ .vmem, ⟨1, _⟩ => ⟨S32x63x2048, .f32⟩
  | .local _ .vmem, ⟨2, _⟩ => ⟨S63x2048, .f32⟩
  | .local _ .vmem, ⟨3, _⟩ => ⟨S63x2048, .f32⟩
  | _, _ => ⟨S2048x63x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_c : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_call0_v6 : Ref sig .tc := ⟨.hbm, 27, rfl⟩
abbrev main_call0_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_cst : Ref sig .tc := ⟨.hbm, 49, rfl⟩
abbrev main_call2_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call3_v0 : Ref sig .tc := ⟨.hbm, 67, rfl⟩
abbrev main_call3_v1 : Ref sig .tc := ⟨.hbm, 68, rfl⟩
abbrev main_call3_c : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_cst : Ref sig .tc := ⟨.hbm, 73, rfl⟩
abbrev main_call3_v5 : Ref sig .tc := ⟨.hbm, 74, rfl⟩
abbrev main_call3_v6 : Ref sig .tc := ⟨.hbm, 75, rfl⟩
abbrev main_call3_cst_0 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_6 : Ref sig .tc := ⟨.hbm, 81, rfl⟩
abbrev main_v46 : Ref sig .tc := ⟨.hbm, 82, rfl⟩
abbrev main_v47 : Ref sig .tc := ⟨.hbm, 83, rfl⟩
abbrev main_cst_7 : Ref sig .tc := ⟨.hbm, 84, rfl⟩
abbrev main_v48 : Ref sig .tc := ⟨.hbm, 85, rfl⟩
abbrev main_v49 : Ref sig .tc := ⟨.hbm, 86, rfl⟩
abbrev main_cst_8 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call5_cst : Ref sig .tc := ⟨.hbm, 97, rfl⟩
abbrev main_call5_v0 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v10 : BitVec 1 := Scalar.cmpi .eq arg0 c63_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x63x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S63x2048_S63x2048_0_0 : ∀ a, (![0, 0] : Fin 2 → Nat) a + S63x2048.size a ≤ S63x2048.size a
  h_S63x2048 : 0 < S63x2048.numel
  shapeCasts_S63x2048_S63x2048 : S63x2048.ShapeCasts S63x2048
  inb_S32x63x2048_S32x63x2048_0_0_0 : ∀ a, (![0, 0, 0] : Fin 3 → Nat) a + S32x63x2048.size a ≤ S32x63x2048.size a
  h_S32x63x2048 : 0 < S32x63x2048.numel
  reduces_S32x63x2048_S63x2048 : S32x63x2048.Reduces [0] S63x2048
  transposes_S63x2048_S2048x63_1_0 : S63x2048.Transposes [1, 0] S2048x63
  reducesTo_S63x63_S_d0_1 : S63x63.ReducesTo [0, 1] S_
  h_S_ : 0 < S_.numel
  bcast_S_S63x63 : S_.BroadcastsInDim S63x63 (![] : Fin 0 → Fin S63x63.rank)
  reducesTo_S63x63_S63_d1 : S63x63.ReducesTo [1] S63
  bcast_S63_S63x1_0 : S63.BroadcastsInDim S63x1 (![0] : Fin 1 → Fin S63x1.rank)
  bcast_S_S63x1 : S_.BroadcastsInDim S63x1 (![] : Fin 0 → Fin S63x1.rank)
  bcast_S63x1_S63x63_0_1 : S63x1.BroadcastsInDim S63x63 (![0, 1] : Fin 2 → Fin S63x63.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S63x1024_0_1 : S1x1024.BroadcastsInDim S63x1024 (![0, 1] : Fin 2 → Fin S63x1024.rank)
  bcast_S_S63x1024 : S_.BroadcastsInDim S63x1024 (![] : Fin 0 → Fin S63x1024.rank)
  shapeCasts_S63x1024_S1024x63 : S63x1024.ShapeCasts S1024x63
  transposes_S1024x63_S63x1024_1_0 : S1024x63.Transposes [1, 0] S63x1024
  transposes_S63x1024_S1024x63_1_0 : S63x1024.Transposes [1, 0] S1024x63
  transposes_S300x1024_S1024x300_1_0 : S300x1024.Transposes [1, 0] S1024x300
  bcast_S300_S1x300_1 : S300.BroadcastsInDim S1x300 (![1] : Fin 1 → Fin S1x300.rank)
  bcast_S1x300_S63x300_0_1 : S1x300.BroadcastsInDim S63x300 (![0, 1] : Fin 2 → Fin S63x300.rank)
  bcast_S_S63x300 : S_.BroadcastsInDim S63x300 (![] : Fin 0 → Fin S63x300.rank)
  shapeCasts_S63x300_S300x63 : S63x300.ShapeCasts S300x63
  transposes_S300x63_S63x300_1_0 : S300x63.Transposes [1, 0] S63x300
  dot_S63x2048_S2048x63_S63x63_1_0_0_1_n_n_wf : DotDims.WF S63x2048 S2048x63 S63x63 [1] [0] [0] [1] [] []
  dot_S63x2048_S2048x1024_S63x1024_1_0_0_1_n_n_wf : DotDims.WF S63x2048 S2048x1024 S63x1024 [1] [0] [0] [1] [] []
  dot_S63x63_S63x1024_S63x1024_1_0_0_1_n_n_wf : DotDims.WF S63x63 S63x1024 S63x1024 [1] [0] [0] [1] [] []
  dot_S63x1024_S1024x63_S63x63_1_0_0_1_n_n_wf : DotDims.WF S63x1024 S1024x63 S63x63 [1] [0] [0] [1] [] []
  dot_S63x1024_S1024x300_S63x300_1_0_0_1_n_n_wf : DotDims.WF S63x1024 S1024x300 S63x300 [1] [0] [0] [1] [] []
  dot_S63x63_S63x300_S63x300_1_0_0_1_n_n_wf : DotDims.WF S63x63 S63x300 S63x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x63x2048.size a ≤ S2048x63x2048.size a
  hwx0_0 : ∀ i : grid0.Coords, EltTy.bits .f32 = 32 ∨ (Rect.block (s := S2048x63x2048) S32x63x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x2048.size a ≤ S63x2048.size a
  hwx0_1 : ∀ i : grid0.Coords, EltTy.bits .f32 = 32 ∨ (Rect.block (s := S63x2048) S63x2048.size (cc0_transform_1 i) (hinb0_1 i)).WholeWords (EltTy.packing .f32)

variable [Facts₀]

def dot_S63x2048_S2048x63_S63x63_1_0_0_1_n_n : DotDims S63x2048 S2048x63 S63x63 where
  lhsContracting := [1]
  rhsContracting := [0]
  lhsNonContracting := [0]
  rhsNonContracting := [1]
  lhsBatch := []
  rhsBatch := []
  wf := dot_S63x2048_S2048x63_S63x63_1_0_0_1_n_n_wf
def dot_S63x2048_S2048x1024_S63x1024_1_0_0_1_n_n : DotDims S63x2048 S2048x1024 S63x1024 where
  lhsContracting := [1]
  rhsContracting := [0]
  lhsNonContracting := [0]
  rhsNonContracting := [1]
  lhsBatch := []
  rhsBatch := []
  wf := dot_S63x2048_S2048x1024_S63x1024_1_0_0_1_n_n_wf
def dot_S63x63_S63x1024_S63x1024_1_0_0_1_n_n : DotDims S63x63 S63x1024 S63x1024 where
  lhsContracting := [1]
  rhsContracting := [0]
  lhsNonContracting := [0]
  rhsNonContracting := [1]
  lhsBatch := []
  rhsBatch := []
  wf := dot_S63x63_S63x1024_S63x1024_1_0_0_1_n_n_wf
def dot_S63x1024_S1024x63_S63x63_1_0_0_1_n_n : DotDims S63x1024 S1024x63 S63x63 where
  lhsContracting := [1]
  rhsContracting := [0]
  lhsNonContracting := [0]
  rhsNonContracting := [1]
  lhsBatch := []
  rhsBatch := []
  wf := dot_S63x1024_S1024x63_S63x63_1_0_0_1_n_n_wf
def dot_S63x1024_S1024x300_S63x300_1_0_0_1_n_n : DotDims S63x1024 S1024x300 S63x300 where
  lhsContracting := [1]
  rhsContracting := [0]
  lhsNonContracting := [0]
  rhsNonContracting := [1]
  lhsBatch := []
  rhsBatch := []
  wf := dot_S63x1024_S1024x300_S63x300_1_0_0_1_n_n_wf
def dot_S63x63_S63x300_S63x300_1_0_0_1_n_n : DotDims S63x63 S63x300 S63x300 where
  lhsContracting := [1]
  rhsContracting := [0]
  lhsNonContracting := [0]
  rhsNonContracting := [1]
  lhsBatch := []
  rhsBatch := []
  wf := dot_S63x63_S63x300_S63x300_1_0_0_1_n_n_wf

abbrev win0_0 : Pipeline.Window sig grid0 :=
  Pipeline.Window.ofSpec (Memref.whole main_arg0) S32x63x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S63x2048.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S2048x63x2048 : Shape := ⟨3, ![2048, 63, 2048]⟩
abbrev S63x63 : Shape := ⟨2, ![63, 63]⟩
abbrev S1024x2048 : Shape := ⟨2, ![1024, 2048]⟩
abbrev S1024 : Shape := ⟨1, ![1024]⟩
abbrev S300x1024 : Shape := ⟨2, ![300, 1024]⟩
abbrev S300 : Shape := ⟨1, ![300]⟩
abbrev S_ : Shape := ⟨0, ![]⟩
abbrev S63x2048 : Shape := ⟨2, ![63, 2048]⟩
abbrev S2048x63 : Shape := ⟨2, ![2048, 63]⟩
abbrev S63 : Shape := ⟨1, ![63]⟩
abbrev S63x1 : Shape := ⟨2, ![63, 1]⟩
abbrev S2048x1024 : Shape := ⟨2, ![2048, 1024]⟩
abbrev S63x1024 : Shape := ⟨2, ![63, 1024]⟩
abbrev S1x1024 : Shape := ⟨2, ![1, 1024]⟩
abbrev S1024x63 : Shape := ⟨2, ![1024, 63]⟩
abbrev S1024x300 : Shape := ⟨2, ![1024, 300]⟩
abbrev S63x300 : Shape := ⟨2, ![63, 300]⟩
abbrev S1x300 : Shape := ⟨2, ![1, 300]⟩
abbrev S300x63 : Shape := ⟨2, ![300, 63]⟩

abbrev nBuf : Space → Nat
  | .hbm => 107
  | .vmem => 0
  | .smem => 0
  | _ => 0

abbrev bufTy : (tb : Table) → Fin (tcTables nBuf tb) → BufTy
  | .hbm, ⟨0, _⟩ => ⟨S2048x63x2048, .f32⟩
  | .hbm, ⟨1, _⟩ => ⟨S63x63, .f32⟩
  | .hbm, ⟨2, _⟩ => ⟨S1024x2048, .f32⟩
  | .hbm, ⟨3, _⟩ => ⟨S1024, .f32⟩
  | .hbm, ⟨4, _⟩ => ⟨S300x1024, .f32⟩
  | .hbm, ⟨5, _⟩ => ⟨S300, .f32⟩
  | .hbm, ⟨6, _⟩ => ⟨S_, .f32⟩
  | .hbm, ⟨7, _⟩ => ⟨S63x2048, .f32⟩
  | .hbm, ⟨8, _⟩ => ⟨S_, .f32⟩
  | .hbm, ⟨9, _⟩ => ⟨S63x2048, .f32⟩
  | .hbm, ⟨10, _⟩ => ⟨S63x2048, .f32⟩
  | .hbm, ⟨11, _⟩ => ⟨S2048x63, .f32⟩
  | .hbm, ⟨12, _⟩ => ⟨S63x63, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S63x63, .f32⟩
  | .hbm, ⟨18, _⟩ => ⟨S63x63, .f32⟩
  | .hbm, ⟨19, _⟩ => ⟨S_, .f32⟩
  | .hbm, ⟨20, _⟩ => ⟨S63x63, .f32⟩
  | .hbm, ⟨21, _⟩ => ⟨S63x63, .f32⟩
  | .hbm, ⟨22, _⟩ => ⟨S63x63, .f32⟩
  | .hbm, ⟨23, _⟩ => ⟨S63x63, .i32⟩
  | .hbm, ⟨24, _⟩ => ⟨S63x63, .i32⟩
  | .hbm, ⟨25, _⟩ => ⟨S_, .i32⟩
  | .hbm, ⟨26, _⟩ => ⟨S63x63, .i32⟩
  | .hbm, ⟨27, _⟩ => ⟨S63x63, .i32⟩
  | .hbm, ⟨28, _⟩ => ⟨S63x63, .i1⟩
  | .hbm, ⟨29, _⟩ => ⟨S_, .f32⟩
  | .hbm, ⟨30, _⟩ => ⟨S63x63, .f32⟩
  | .hbm, ⟨31, _⟩ => ⟨S63x63, .f32⟩
  | .hbm, ⟨32, _⟩ => ⟨S_, .f32⟩
  | .hbm, ⟨33, _⟩ => ⟨S_, .f32⟩
  | .hbm, ⟨34, _⟩ => ⟨S63x63, .f32⟩
  | .hbm, ⟨35, _⟩ => ⟨S63x63, .f32⟩
  | .hbm, ⟨36, _⟩ => ⟨S63x63, .f32⟩
  | .hbm, ⟨37, _⟩ => ⟨S_, .f32⟩
  | .hbm, ⟨38, _⟩ => ⟨S63, .f32⟩
  | .hbm, ⟨39, _⟩ => ⟨S63x1, .f32⟩
  | .hbm, ⟨40, _⟩ => ⟨S_, .f32⟩
  | .hbm, ⟨41, _⟩ => ⟨S63x1, .f32⟩
  | .hbm, ⟨42, _⟩ => ⟨S63x1, .i1⟩
  | .hbm, ⟨43, _⟩ => ⟨S_, .f32⟩
  | .hbm, ⟨44, _⟩ => ⟨S63x1, .f32⟩
  | .hbm, ⟨45, _⟩ => ⟨S63x1, .f32⟩
  | .hbm, ⟨46, _⟩ => ⟨S63x63, .f32⟩
  | .hbm, ⟨47, _⟩ => ⟨S63x63, .f32⟩
  | .hbm, ⟨48, _⟩ => ⟨S2048x1024, .f32⟩
  | .hbm, ⟨49, _⟩ => ⟨S63x1024, .f32⟩
  | .hbm, ⟨50, _⟩ => ⟨S1x1024, .f32⟩
  | .hbm, ⟨51, _⟩ => ⟨S63x1024, .f32⟩
  | .hbm, ⟨52, _⟩ => ⟨S63x1024, .f32⟩
  | .hbm, ⟨53, _⟩ => ⟨S_, .f32⟩
  | .hbm, ⟨54, _⟩ => ⟨S63x1024, .f32⟩
  | .hbm, ⟨55, _⟩ => ⟨S63x1024, .f32⟩
  | .hbm, ⟨56, _⟩ => ⟨S1024x63, .f32⟩
  | .hbm, ⟨57, _⟩ => ⟨S63x1024, .f32⟩
  | .hbm, ⟨58, _⟩ => ⟨S63x1024, .f32⟩
  | .hbm, ⟨59, _⟩ => ⟨S1024x63, .f32⟩
  | .hbm, ⟨60, _⟩ => ⟨S63x63, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S63x63, .f32⟩
  | .hbm, ⟨66, _⟩ => ⟨S63x63, .f32⟩
  | .hbm, ⟨67, _⟩ => ⟨S_, .f32⟩
  | .hbm, ⟨68, _⟩ => ⟨S63x63, .f32⟩
  | .hbm, ⟨69, _⟩ => ⟨S63x63, .f32⟩
  | .hbm, ⟨70, _⟩ => ⟨S63x63, .f32⟩
  | .hbm, ⟨71, _⟩ => ⟨S63x63, .i32⟩
  | .hbm, ⟨72, _⟩ => ⟨S63x63, .i32⟩
  | .hbm, ⟨73, _⟩ => ⟨S_, .i32⟩
  | .hbm, ⟨74, _⟩ => ⟨S63x63, .i32⟩
  | .hbm, ⟨75, _⟩ => ⟨S63x63, .i32⟩
  | .hbm, ⟨76, _⟩ => ⟨S63x63, .i1⟩
  | .hbm, ⟨77, _⟩ => ⟨S_, .f32⟩
  | .hbm, ⟨78, _⟩ => ⟨S63x63, .f32⟩
  | .hbm, ⟨79, _⟩ => ⟨S63x63, .f32⟩
  | .hbm, ⟨80, _⟩ => ⟨S_, .f32⟩
  | .hbm, ⟨81, _⟩ => ⟨S_, .f32⟩
  | .hbm, ⟨82, _⟩ => ⟨S63x63, .f32⟩
  | .hbm, ⟨83, _⟩ => ⟨S63x63, .f32⟩
  | .hbm, ⟨84, _⟩ => ⟨S63x63, .f32⟩
  | .hbm, ⟨85, _⟩ => ⟨S_, .f32⟩
  | .hbm, ⟨86, _⟩ => ⟨S63, .f32⟩
  | .hbm, ⟨87, _⟩ => ⟨S63x1, .f32⟩
  | .hbm, ⟨88, _⟩ => ⟨S_, .f32⟩
  | .hbm, ⟨89, _⟩ => ⟨S63x1, .f32⟩
  | .hbm, ⟨90, _⟩ => ⟨S63x1, .i1⟩
  | .hbm, ⟨91, _⟩ => ⟨S_, .f32⟩
  | .hbm, ⟨92, _⟩ => ⟨S63x1, .f32⟩
  | .hbm, ⟨93, _⟩ => ⟨S63x1, .f32⟩
  | .hbm, ⟨94, _⟩ => ⟨S63x63, .f32⟩
  | .hbm, ⟨95, _⟩ => ⟨S63x63, .f32⟩
  | .hbm, ⟨96, _⟩ => ⟨S1024x300, .f32⟩
  | .hbm, ⟨97, _⟩ => ⟨S63x300, .f32⟩
  | .hbm, ⟨98, _⟩ => ⟨S1x300, .f32⟩
  | .hbm, ⟨99, _⟩ => ⟨S63x300, .f32⟩
  | .hbm, ⟨100, _⟩ => ⟨S63x300, .f32⟩
  | .hbm, ⟨101, _⟩ => ⟨S_, .f32⟩
  | .hbm, ⟨102, _⟩ => ⟨S63x300, .f32⟩
  | .hbm, ⟨103, _⟩ => ⟨S63x300, .f32⟩
  | .hbm, ⟨104, _⟩ => ⟨S300x63, .f32⟩
  | .hbm, ⟨105, _⟩ => ⟨S63x300, .f32⟩
  | .hbm, ⟨106, _⟩ => ⟨S63x300, .f32⟩
  | _, _ => ⟨S2048x63x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_c : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_cst : Ref sig .tc := ⟨.hbm, 29, rfl⟩
abbrev main_call0_v5 : Ref sig .tc := ⟨.hbm, 30, rfl⟩
abbrev main_call0_v6 : Ref sig .tc := ⟨.hbm, 31, rfl⟩
abbrev main_call0_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call2_cst : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call3_v0 : Ref sig .tc := ⟨.hbm, 71, rfl⟩
abbrev main_call3_v1 : Ref sig .tc := ⟨.hbm, 72, rfl⟩
abbrev main_call3_c : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_cst : Ref sig .tc := ⟨.hbm, 77, rfl⟩
abbrev main_call3_v5 : Ref sig .tc := ⟨.hbm, 78, rfl⟩
abbrev main_call3_v6 : Ref sig .tc := ⟨.hbm, 79, rfl⟩
abbrev main_call3_cst_0 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_call5_cst : Ref sig .tc := ⟨.hbm, 101, rfl⟩
abbrev main_call5_v0 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩

abbrev nD : Nat := 1
abbrev τ : Topo := Topo.v7x

variable {F : FTy → Type} [FloatOps F]

class Facts₀ : Prop where
  reducesTo_S2048x63x2048_S63x2048_d0 : S2048x63x2048.ReducesTo [0] S63x2048
  h_S_ : 0 < S_.numel
  bcast_S_S63x2048 : S_.BroadcastsInDim S63x2048 (![] : Fin 0 → Fin S63x2048.rank)
  transposes_S63x2048_S2048x63_1_0 : S63x2048.Transposes [1, 0] S2048x63
  reducesTo_S63x63_S_d0_1 : S63x63.ReducesTo [0, 1] S_
  bcast_S_S63x63 : S_.BroadcastsInDim S63x63 (![] : Fin 0 → Fin S63x63.rank)
  reducesTo_S63x63_S63_d1 : S63x63.ReducesTo [1] S63
  bcast_S63_S63x1_0 : S63.BroadcastsInDim S63x1 (![0] : Fin 1 → Fin S63x1.rank)
  bcast_S_S63x1 : S_.BroadcastsInDim S63x1 (![] : Fin 0 → Fin S63x1.rank)
  bcast_S63x1_S63x63_0_1 : S63x1.BroadcastsInDim S63x63 (![0, 1] : Fin 2 → Fin S63x63.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S63x1024_0_1 : S1x1024.BroadcastsInDim S63x1024 (![0, 1] : Fin 2 → Fin S63x1024.rank)
  bcast_S_S63x1024 : S_.BroadcastsInDim S63x1024 (![] : Fin 0 → Fin S63x1024.rank)
  shapeCasts_S63x1024_S1024x63 : S63x1024.ShapeCasts S1024x63
  transposes_S1024x63_S63x1024_1_0 : S1024x63.Transposes [1, 0] S63x1024
  transposes_S63x1024_S1024x63_1_0 : S63x1024.Transposes [1, 0] S1024x63
  transposes_S300x1024_S1024x300_1_0 : S300x1024.Transposes [1, 0] S1024x300
  bcast_S300_S1x300_1 : S300.BroadcastsInDim S1x300 (![1] : Fin 1 → Fin S1x300.rank)
  bcast_S1x300_S63x300_0_1 : S1x300.BroadcastsInDim S63x300 (![0, 1] : Fin 2 → Fin S63x300.rank)
  bcast_S_S63x300 : S_.BroadcastsInDim S63x300 (![] : Fin 0 → Fin S63x300.rank)
  shapeCasts_S63x300_S300x63 : S63x300.ShapeCasts S300x63
  transposes_S300x63_S63x300_1_0 : S300x63.Transposes [1, 0] S63x300
  dot_S63x2048_S2048x63_S63x63_1_0_0_1_n_n_wf : DotDims.WF S63x2048 S2048x63 S63x63 [1] [0] [0] [1] [] []
  dot_S63x2048_S2048x1024_S63x1024_1_0_0_1_n_n_wf : DotDims.WF S63x2048 S2048x1024 S63x1024 [1] [0] [0] [1] [] []
  dot_S63x63_S63x1024_S63x1024_1_0_0_1_n_n_wf : DotDims.WF S63x63 S63x1024 S63x1024 [1] [0] [0] [1] [] []
  dot_S63x1024_S1024x63_S63x63_1_0_0_1_n_n_wf : DotDims.WF S63x1024 S1024x63 S63x63 [1] [0] [0] [1] [] []
  dot_S63x1024_S1024x300_S63x300_1_0_0_1_n_n_wf : DotDims.WF S63x1024 S1024x300 S63x300 [1] [0] [0] [1] [] []
  dot_S63x63_S63x300_S63x300_1_0_0_1_n_n_wf : DotDims.WF S63x63 S63x300 S63x300 [1] [0] [0] [1] [] []

variable [Facts₀]

def dot_S63x2048_S2048x63_S63x63_1_0_0_1_n_n : DotDims S63x2048 S2048x63 S63x63 where
  lhsContracting := [1]
  rhsContracting := [0]
  lhsNonContracting := [0]
  rhsNonContracting := [1]
  lhsBatch := []
  rhsBatch := []
  wf := dot_S63x2048_S2048x63_S63x63_1_0_0_1_n_n_wf
def dot_S63x2048_S2048x1024_S63x1024_1_0_0_1_n_n : DotDims S63x2048 S2048x1024 S63x1024 where
  lhsContracting := [1]
  rhsContracting := [0]
  lhsNonContracting := [0]
  rhsNonContracting := [1]
  lhsBatch := []
  rhsBatch := []
  wf := dot_S63x2048_S2048x1024_S63x1024_1_0_0_1_n_n_wf
def dot_S63x63_S63x1024_S63x1024_1_0_0_1_n_n : DotDims S63x63 S63x1024 S63x1024 where
  lhsContracting := [1]
  rhsContracting := [0]
  lhsNonContracting := [0]
  rhsNonContracting := [1]
  lhsBatch := []
  rhsBatch := []
  wf := dot_S63x63_S63x1024_S63x1024_1_0_0_1_n_n_wf
def dot_S63x1024_S1024x63_S63x63_1_0_0_1_n_n : DotDims S63x1024 S1024x63 S63x63 where
  lhsContracting := [1]
  rhsContracting := [0]
  lhsNonContracting := [0]
  rhsNonContracting := [1]
  lhsBatch := []
  rhsBatch := []
  wf := dot_S63x1024_S1024x63_S63x63_1_0_0_1_n_n_wf
def dot_S63x1024_S1024x300_S63x300_1_0_0_1_n_n : DotDims S63x1024 S1024x300 S63x300 where
  lhsContracting := [1]
  rhsContracting := [0]
  lhsNonContracting := [0]
  rhsNonContracting := [1]
  lhsBatch := []
  rhsBatch := []
  wf := dot_S63x1024_S1024x300_S63x300_1_0_0_1_n_n_wf
def dot_S63x63_S63x300_S63x300_1_0_0_1_n_n : DotDims S63x63 S63x300 S63x300 where
  lhsContracting := [1]
  rhsContracting := [0]
  lhsNonContracting := [0]
  rhsNonContracting := [1]
  lhsBatch := []
  rhsBatch := []
  wf := dot_S63x63_S63x300_S63x300_1_0_0_1_n_n_wf

class Facts : Prop extends Facts₀ where

variable [Facts]
-- ==== Proof.Bits.Kit.lean ====
/-
  The batch mean as a pipelined region, and the host lines that follow it.

  @main of this program is ONE region — the sum over the batch axis of a [2048, 63, 2048] array, taken 32 rows at a
  grid point over 64 points into an accumulator the kernel keeps between points, and scaled by 1/2048 into the
  [63, 2048] result at the last point — followed by 96 host operations in thirteen stretches (the two
  inverse-covariance stages and the two graph layers), none of which writes an argument or the region's result.
  This module states what the frame of such an @main stands on: the contents the region is entered with, @main as
  "the region, then the later lines", the later lines' footprint, the two conditions of the body in closed form
  (first point, last point), where the result window is idle, and the frame claim read off a frame run.
-/
import proofs.«101755_j52673478918326_1_alg».proof.Proof.Gen.Kernel.Launch
import proofs.«101755_j52673478918326_1_alg».proof.Proof.Gen.Kernel.Skeleton
import proofs.«101755_j52673478918326_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mean

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the later lines -/

/-- Core `c`'s buffers when the region is entered: @main begins with the region, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The thirteen stretches of host operations after the region, in order: @main's own lines and, at each call, the
    callee's lines over that call's buffers. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12]

/-- A property of every operation of every stretch, from its statement stretch by stretch. -/
theorem forall_mem_of_forall₂ {α : Type _} {p : α → Prop} (opss : List (List α)) (h : opss.Forall fun ops => ops.Forall p) :
    ∀ ops ∈ opss, ∀ op ∈ ops, p op :=
  fun ops ho op h' => (List.forall_iff_forall_mem.mp ((List.forall_iff_forall_mem.mp h) ops ho)) op h'

/-- Every later line touches TensorCore references only. -/
theorem tail_tc : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub,
   hostOps1_8_sub, hostOps1_9_sub, hostOps1_10_sub, hostOps1_11_sub, hostOps1_12_sub⟩

/-- No later line allocates. -/
theorem tail_fresh : (tailOps : List (List (HloOp τ sig (Elt F)))).Forall fun ops => ops.Forall fun op => op.fresh = ∅ := by
  simp only [List.Forall]; repeat' constructor

/-- @main reduces to the region CONTINUED BY the later lines, entered at the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch the pipeline's two arrays and the buffers that bypass the region only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops ho op h => Pipeline.sub_ucRefs op (forall_mem_of_forall₂ _ tail_tc ops ho op h)

theorem tail_fresh' : ∀ ops ∈ (tailOps : List (List (HloOp τ sig (Elt F)))), ∀ op ∈ ops, op.fresh = ∅ :=
  forall_mem_of_forall₂ _ tail_fresh

/-- Each later line writes its own result buffer, one of the 96 buffers numbered after the region's result: a buffer
    `b` that is none of them is written by no line. Closed per buffer by deciding the 96 inequalities. -/
macro "tail_untouched" : tactic => `(tactic| (
  simp only [tailOps, hostOps1, hostOps1_1, hostOps1_2, hostOps1_3, hostOps1_4, hostOps1_5, hostOps1_6, hostOps1_7, hostOps1_8,
    hostOps1_9, hostOps1_10, hostOps1_11, hostOps1_12, List.flatten_cons, List.flatten_nil, List.append_nil, List.cons_append,
    List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem tail_keeps_arg0 : ((tailOps (F := F)).flatten).Forall fun op => Proc.devRef .tc main_arg0 ∉ op.writes := by tail_untouched
theorem tail_keeps_arg1 : ((tailOps (F := F)).flatten).Forall fun op => Proc.devRef .tc main_arg1 ∉ op.writes := by tail_untouched
theorem tail_keeps_arg2 : ((tailOps (F := F)).flatten).Forall fun op => Proc.devRef .tc main_arg2 ∉ op.writes := by tail_untouched
theorem tail_keeps_arg3 : ((tailOps (F := F)).flatten).Forall fun op => Proc.devRef .tc main_arg3 ∉ op.writes := by tail_untouched
theorem tail_keeps_arg4 : ((tailOps (F := F)).flatten).Forall fun op => Proc.devRef .tc main_arg4 ∉ op.writes := by tail_untouched
theorem tail_keeps_arg5 : ((tailOps (F := F)).flatten).Forall fun op => Proc.devRef .tc main_arg5 ∉ op.writes := by tail_untouched
theorem tail_keeps_v0 : ((tailOps (F := F)).flatten).Forall fun op => Proc.devRef .tc main_v0 ∉ op.writes := by tail_untouched

/-- An operation of a stretch is an operation of the flattened list. -/
theorem mem_flatten_of {α : Type _} {opss : List (List α)} {ops : List α} {op : α} (ho : ops ∈ opss) (h : op ∈ ops) :
    op ∈ opss.flatten := List.mem_flatten.mpr ⟨ops, ho, h⟩

/-- No later line writes an array of the pipeline (the batch array, the region's result). -/
theorem tail_keeps : ∀ ops ∈ (tailOps : List (List (HloOp τ sig (Elt F)))), ∀ op ∈ ops,
    ∀ w, Proc.devRef .tc (Pipeline.arrRef spec0 w) ∉ op.writes := by
  intro ops ho op h w
  have hf := mem_flatten_of ho h
  fin_cases w
  · exact (List.forall_iff_forall_mem.mp tail_keeps_arg0) op hf
  · exact (List.forall_iff_forall_mem.mp tail_keeps_v0) op hf

theorem V_main_arg0 (c : Dev nD) : V m c main_arg0 = m ((c : Thread nD τ).loc main_arg0) := rfl

/-! ## The arguments after the later lines -/

/-- An argument the region does not stage ends as launched: no later line writes it, and it is no array of the pipeline. -/
theorem kept_of (dats : (p : Fin 1) → (c : Dev nD) → Dat τ (Elt F) Unit ℕ (UR sig nD τ) ℕ (cfgs p) c) (c : Dev nD)
    (b : Ref sig .tc) (hb : ((tailOps (F := F)).flatten).Forall fun op => Proc.devRef .tc b ∉ op.writes)
    (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (List.forall_iff_forall_mem.mp hb),
    Pipeline.withArrays_of_ne _ c (V0 m c) _ b hne]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch window's current staging buffer holds rows 32·t … 32·t+31 at every point `t`, for any proof data whose
    array is the launch contents and whose body leaves the block in place: the window is fetched at every point, uncut
    and never idle. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data whose arrays are the launch contents, a run to the frame post read at the six arguments — the
    batch array as a staged input, the other five as buffers that bypass the region and that no later line writes — is
    the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (kept_of m dats c main_arg1 tail_keeps_arg1 (by decide)),
     ((h c).2 main_arg2 (Pipeline.mem_restRefs_of main_arg2 (by decide) (by decide))).trans (kept_of m dats c main_arg2 tail_keeps_arg2 (by decide)),
     ((h c).2 main_arg3 (Pipeline.mem_restRefs_of main_arg3 (by decide) (by decide))).trans (kept_of m dats c main_arg3 tail_keeps_arg3 (by decide)),
     ((h c).2 main_arg4 (Pipeline.mem_restRefs_of main_arg4 (by decide) (by decide))).trans (kept_of m dats c main_arg4 tail_keeps_arg4 (by decide)),
     ((h c).2 main_arg5 (Pipeline.mem_restRefs_of main_arg5 (by decide) (by decide))).trans (kept_of m dats c main_arg5 tail_keeps_arg5 (by decide))⟩) h

/-! ## The body's two conditions, over the grid -/

/-- "This is the first point": the condition under which the accumulator is reset, from the grid coordinate. -/
abbrev isFirst (i : grid0.Coords) : Prop := (Scalar.cmpi .ne (Scalar.extui (Scalar.cmpi .eq (BitVec.ofNat 32 (i 0).val) 0#32)) 0#32) = 1#1
/-- It holds at point 0 only — decided over the 64 points. -/
theorem isFirst_iff : ∀ t : Fin cfg0.N, isFirst (grid0.coords t) ↔ t.val = 0 :=
  (by decide +kernel : ∀ t : Fin grid0.N, isFirst (grid0.coords t) ↔ t.val = 0)

/-- "This is the last point": the condition under which the scaled accumulator is stored into the result block. -/
abbrev isLast (i : grid0.Coords) : Prop := k0_cond2 i = 1#1
/-- It holds at point 63 only — decided over the 64 points. -/
theorem isLast_iff : ∀ t : Fin cfg0.N, isLast (grid0.coords t) ↔ t.val = 63 :=
  (by decide +kernel : ∀ t : Fin grid0.N, isLast (grid0.coords t) ↔ t.val = 63)

/-! ## Where the windows are idle -/

/-- The batch window is never idle. -/
theorem live_in : ∀ t : Fin cfg0.N, cfg0.idle 0 (grid0.coords t) = false := by decide +kernel
/-- Before the last point the result window is idle: the body stores nothing into it, -/
theorem idle_out : ∀ t : Fin cfg0.N, ¬isLast (grid0.coords t) → cfg0.idle 1 (grid0.coords t) = true := by decide +kernel
/-- and the pipeline does not write its block back there. -/
theorem noFlush_out : ∀ t : Fin cfg0.N, ¬isLast (grid0.coords t) → (cfg0.win 1).flush t = false := by decide +kernel
/-- At the last point the result window is live. -/
theorem live_out : ∀ t : Fin cfg0.N, isLast (grid0.coords t) → cfg0.idle 1 (grid0.coords t) = false := by decide +kernel

/-! ## The memrefs the body is called with -/

/-- One staging buffer of the result window, through which its contents are stated. -/
abbrev outView : View sig .tc .vmem S63x2048 .f32 := (Memref.whole cc0_stg1_0 : Memref sig .tc .vmem S63x2048 .f32).view
/-- Each window's current staging memref at point `t`, as the pipeline passes it, and its wholeness. -/
abbrev inBuf (t : Fin cfg0.N) : Memref sig .tc .vmem S32x63x2048 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S63x2048 .f32 := win0_1.stage (cfg0.slots t 1)
abbrev outBuf_whole (t : Fin cfg0.N) : (outBuf t).IsWhole := hstage0_1 ((cfg0.slots t 1).cast nbuf0_1)
/-- The accumulator: a whole scoped buffer of the kernel's own, passed beside the windows and kept between points. -/
abbrev acc : Memref sig .tc .vmem S63x2048 .f32 := Memref.whole cc0_scratch0
/-- The accumulator as a view: what it holds is stated through it. -/
abbrev accView : View sig .tc .vmem S63x2048 .f32 := acc.view

/-- What the launch hands the region besides the windows: the accumulator at some contents and the generator register
    at some state. -/
theorem PhiA_eq (c : Dev nD) :
    (Pipeline.ΦA spec0 c : sProp 𝕄)
      = iprop(iprop((∃ d, owns (c : Thread nD τ) acc fullShare d)) ∗ (∃ r, prngReg c r)) := by
  unfold Pipeline.ΦA; rw [scopedRest0_eq]; simp only [acc, owns_whole]; try rfl

end Cert.Kernel.Mean

end
-- ==== Proof.Bits.RunFirst.lean ====
/-
  The body at the FIRST grid point (the reset is taken, the final store is not).

  On whole memrefs — the batch block at `x0`, the result buffer at `xi` (idle here: handed back untouched), the
  accumulator at anything — the body stores zeros into the accumulator, reads them back, adds the block's sum over its
  32 rows and stores the sum: the accumulator ends with those two stores written, last first. The stores are the
  witness the symbolic run finds; what they amount to is read off in the frame module.
-/
import proofs.«101755_j52673478918326_1_alg».proof.Proof.Bits.Kit

set_option maxRecDepth 16384

noncomputable section

namespace Cert.Kernel.Mean

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's stores at the first point (last first), with the body's triple there. -/
noncomputable def runFirst (c : Dev nD) (i : grid0.Coords) (arg1 : Memref sig .tc .vmem S32x63x2048 .f32) (harg1 : arg1.IsWhole)
    (arg2 : Memref sig .tc .vmem S63x2048 .f32) (harg2 : arg2.IsWhole) (arg3 : Memref sig .tc .vmem S63x2048 .f32) (harg3 : arg3.IsWhole)
    (hf : isFirst i) (hl : ¬isLast i) (x0 : Vec F S32x63x2048 .f32) :
    Σ' (L1 : List (View.Piece (Elt F) S63x2048 .f32)), { LS : List (View.Piece (Elt F) S63x2048 .f32) //
      ∀ (xi : Vec F S63x2048 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LS)) -∗ K ⟨⟩))
          ⊢ wp frame (wpE (defs₀ (F := F)) Variants.none c none) E (cc0__mean_kernel i arg1 harg1 arg2 harg2 arg3 harg3) K } := by
  refine ⟨[], ?_, fun xi E K => ?run⟩
  case run =>
    simp only [cc0__mean_kernel_eq_skeleton]; unfold cc0__mean_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Mean

end
-- ==== Proof.Bits.RunMid.lean ====
/-
  The body at a MIDDLE grid point (neither the reset nor the final store is taken).

  On whole memrefs — the batch block at `x0`, the result buffer at `xi` (idle: handed back untouched), the
  accumulator at what the point before left, `xs` — the body adds the block's sum over its 32 rows to the accumulator
  and stores it back: one store.
-/
import proofs.«101755_j52673478918326_1_alg».proof.Proof.Bits.RunFirst

set_option maxRecDepth 16384

noncomputable section

namespace Cert.Kernel.Mean

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's store at a middle point, with the body's triple there. -/
noncomputable def runMid (c : Dev nD) (i : grid0.Coords) (arg1 : Memref sig .tc .vmem S32x63x2048 .f32) (harg1 : arg1.IsWhole)
    (arg2 : Memref sig .tc .vmem S63x2048 .f32) (harg2 : arg2.IsWhole) (arg3 : Memref sig .tc .vmem S63x2048 .f32) (harg3 : arg3.IsWhole)
    (hf : ¬isFirst i) (hl : ¬isLast i) (x0 : Vec F S32x63x2048 .f32) (xs : Vec F S63x2048 .f32) :
    Σ' (L1 : List (View.Piece (Elt F) S63x2048 .f32)), { LS : List (View.Piece (Elt F) S63x2048 .f32) //
      ∀ (xi : Vec F S63x2048 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LS)) -∗ K ⟨⟩))
          ⊢ wp frame (wpE (defs₀ (F := F)) Variants.none c none) E (cc0__mean_kernel i arg1 harg1 arg2 harg2 arg3 harg3) K } := by
  refine ⟨[], ?_, fun xi E K => ?run⟩
  case run =>
    simp only [cc0__mean_kernel_eq_skeleton]; unfold cc0__mean_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Mean

end
-- ==== Proof.Bits.RunLast.lean ====
/-
  The body at the LAST grid point (the reset is not taken, the final store is).

  On whole memrefs — the batch block at `x0`, the result buffer at anything, the accumulator at what the point
  before left, `xs` — the body adds the block's sum to the accumulator, stores it back, reads it again and stores its
  product with 1/2048 into the result buffer: one store into each.
-/
import proofs.«101755_j52673478918326_1_alg».proof.Proof.Bits.RunMid

set_option maxRecDepth 16384

noncomputable section

namespace Cert.Kernel.Mean

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The result buffer's store and the accumulator's store at the last point, with the body's triple there. -/
noncomputable def runLast (c : Dev nD) (i : grid0.Coords) (arg1 : Memref sig .tc .vmem S32x63x2048 .f32) (harg1 : arg1.IsWhole)
    (arg2 : Memref sig .tc .vmem S63x2048 .f32) (harg2 : arg2.IsWhole) (arg3 : Memref sig .tc .vmem S63x2048 .f32) (harg3 : arg3.IsWhole)
    (hf : ¬isFirst i) (hl : isLast i) (x0 : Vec F S32x63x2048 .f32) (xs : Vec F S63x2048 .f32) :
    Σ' (L1 : List (View.Piece (Elt F) S63x2048 .f32)), { LS : List (View.Piece (Elt F) S63x2048 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS)) -∗ K ⟨⟩))
          ⊢ wp frame (wpE (defs₀ (F := F)) Variants.none c none) E (cc0__mean_kernel i arg1 harg1 arg2 harg2 arg3 harg3) K } := by
  refine ⟨?_, ?_, fun E K => ?run⟩
  case run =>
    simp only [cc0__mean_kernel_eq_skeleton]; unfold cc0__mean_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hf | exact hl)
    sl_step
    iapply Hk
    isplitl [H0]
    · iexists _; isplitr; · ipureintro; exact harg1.read_unread _
      iexact H0
    isplitl [H1]; · iexists _; iexact H1
    iexists _; iexact HS0

end Cert.Kernel.Mean

end
-- ==== Proof.Bits.Frame.lean ====
/-
  The frame of the batch-mean program: point by point what the accumulator holds, the region's proof data, the body
  obligation, the run of @main and its frame.

  The accumulator is reset and first added to at point 0, added to at points 1 … 62, added to and read out (scaled)
  at point 63; the result window is idle until point 63, where it is stored whole and written back. So the
  accumulator after point n is a recursion on n (`accAt`), the invariant between points holds it at exactly that, and
  the result buffer after the last point holds the last point's store over `accAt 62`.
-/
import proofs.«101755_j52673478918326_1_alg».proof.Proof.Bits.RunLast

set_option maxRecDepth 16384

noncomputable section

namespace Cert.Kernel.Mean

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

section Cases
variable (c : Dev nD) (i : grid0.Coords) (arg1 : Memref sig .tc .vmem S32x63x2048 .f32) (harg1 : arg1.IsWhole)
  (arg2 : Memref sig .tc .vmem S63x2048 .f32) (harg2 : arg2.IsWhole) (arg3 : Memref sig .tc .vmem S63x2048 .f32) (harg3 : arg3.IsWhole)
  (x0 : Vec F S32x63x2048 .f32) (xs : Vec F S63x2048 .f32)

/-- The first point's two stores into the accumulator cover it. -/
theorem cover_accFirst (hf : isFirst i) (hl : ¬isLast i) (y : S63x2048.Idx) :
    ∃ pc ∈ (runFirst c i arg1 harg1 arg2 harg2 arg3 harg3 hf hl x0).2.1, y ∈ pc.1.set :=
  View.cover_of_tiledL (runFirst c i arg1 harg1 arg2 harg2 arg3 harg3 hf hl x0).2.1 S63x2048.size (by sl_kernel_rfl) y
/-- What the first point leaves in the accumulator. -/
def accFirst (hf : isFirst i) (hl : ¬isLast i) : Vec F S63x2048 .f32 :=
  accView.read (Elt F) (accView.writes (Elt F) accView.junk (runFirst c i arg1 harg1 arg2 harg2 arg3 harg3 hf hl x0).2.1)

/-- A middle point's store into the accumulator covers it. -/
theorem cover_accMid (hf : ¬isFirst i) (hl : ¬isLast i) (y : S63x2048.Idx) :
    ∃ pc ∈ (runMid c i arg1 harg1 arg2 harg2 arg3 harg3 hf hl x0 xs).2.1, y ∈ pc.1.set :=
  View.cover_of_tiledL (runMid c i arg1 harg1 arg2 harg2 arg3 harg3 hf hl x0 xs).2.1 S63x2048.size (by sl_kernel_rfl) y
/-- What a middle point leaves in the accumulator, over what the point before left. -/
def accMid (hf : ¬isFirst i) (hl : ¬isLast i) : Vec F S63x2048 .f32 :=
  accView.read (Elt F) (accView.writes (Elt F) accView.junk (runMid c i arg1 harg1 arg2 harg2 arg3 harg3 hf hl x0 xs).2.1)

/-- The last point's store into the accumulator covers it, -/
theorem cover_accLast (hf : ¬isFirst i) (hl : isLast i) (y : S63x2048.Idx) :
    ∃ pc ∈ (runLast c i arg1 harg1 arg2 harg2 arg3 harg3 hf hl x0 xs).2.1, y ∈ pc.1.set :=
  View.cover_of_tiledL (runLast c i arg1 harg1 arg2 harg2 arg3 harg3 hf hl x0 xs).2.1 S63x2048.size (by sl_kernel_rfl) y
/-- and its store into the result buffer covers that. -/
theorem cover_outLast (hf : ¬isFirst i) (hl : isLast i) (y : S63x2048.Idx) :
    ∃ pc ∈ (runLast c i arg1 harg1 arg2 harg2 arg3 harg3 hf hl x0 xs).1, y ∈ pc.1.set :=
  View.cover_of_tiledL (runLast c i arg1 harg1 arg2 harg2 arg3 harg3 hf hl x0 xs).1 S63x2048.size (by sl_kernel_rfl) y
/-- What the last point leaves in the accumulator, -/
def accLast (hf : ¬isFirst i) (hl : isLast i) : Vec F S63x2048 .f32 :=
  accView.read (Elt F) (accView.writes (Elt F) accView.junk (runLast c i arg1 harg1 arg2 harg2 arg3 harg3 hf hl x0 xs).2.1)
/-- and in the result buffer. -/
def outLast (hf : ¬isFirst i) (hl : isLast i) : Vec F S63x2048 .f32 :=
  outView.read (Elt F) (outView.writes (Elt F) outView.junk (runLast c i arg1 harg1 arg2 harg2 arg3 harg3 hf hl x0 xs).1)

end Cases

/-! ## The accumulator and the result buffer, point by point -/

theorem not_first_of_pos (t : Fin cfg0.N) (h : t.val ≠ 0) : ¬isFirst (grid0.coords t) := fun hf => h ((isFirst_iff t).mp hf)
theorem not_last_of_ne (t : Fin cfg0.N) (h : t.val ≠ 63) : ¬isLast (grid0.coords t) := fun hl => h ((isLast_iff t).mp hl)

/-- THE ACCUMULATION: what the accumulator holds after the body at point `n` — the first point's contents at 0, and
    at a later point that point's store over what the point before left. -/
def accAt (c : Dev nD) : (n : ℕ) → n < cfg0.N → Vec F S63x2048 .f32
  | 0, hn => accFirst c (grid0.coords ⟨0, hn⟩) (inBuf ⟨0, hn⟩) (inBuf_whole ⟨0, hn⟩) (outBuf ⟨0, hn⟩) (outBuf_whole ⟨0, hn⟩) acc (Memref.isWhole_whole _) (iblk m c 0 ⟨0, hn⟩) ((isFirst_iff ⟨0, hn⟩).mpr rfl) (not_last_of_ne ⟨0, hn⟩ (by show (0 : ℕ) ≠ 63; omega))
  | n + 1, hn =>
    if h : n + 1 = 63 then
      accLast c (grid0.coords ⟨n + 1, hn⟩) (inBuf ⟨n + 1, hn⟩) (inBuf_whole ⟨n + 1, hn⟩) (outBuf ⟨n + 1, hn⟩) (outBuf_whole ⟨n + 1, hn⟩) acc (Memref.isWhole_whole _) (iblk m c 0 ⟨n + 1, hn⟩) (accAt c n (Nat.lt_of_succ_lt hn)) (not_first_of_pos ⟨n + 1, hn⟩ (Nat.succ_ne_zero n)) ((isLast_iff ⟨n + 1, hn⟩).mpr h)
    else
      accMid c (grid0.coords ⟨n + 1, hn⟩) (inBuf ⟨n + 1, hn⟩) (inBuf_whole ⟨n + 1, hn⟩) (outBuf ⟨n + 1, hn⟩) (outBuf_whole ⟨n + 1, hn⟩) acc (Memref.isWhole_whole _) (iblk m c 0 ⟨n + 1, hn⟩) (accAt c n (Nat.lt_of_succ_lt hn)) (not_first_of_pos ⟨n + 1, hn⟩ (Nat.succ_ne_zero n)) (not_last_of_ne ⟨n + 1, hn⟩ h)

theorem pred_lt (t : Fin cfg0.N) : t.val - 1 < cfg0.N := Nat.lt_of_le_of_lt (Nat.sub_le _ _) t.isLt

theorem accAt_first (c : Dev nD) (t : Fin cfg0.N) (h0 : t.val = 0) :
    accAt m c t.val t.isLt = accFirst c (grid0.coords t) (inBuf t) (inBuf_whole t) (outBuf t) (outBuf_whole t) acc (Memref.isWhole_whole _) (iblk m c 0 t) ((isFirst_iff t).mpr h0) (not_last_of_ne t (by omega)) := by
  obtain ⟨n, hn⟩ := t
  cases n with
  | zero => exact rfl
  | succ n => exact absurd h0 (Nat.succ_ne_zero n)

theorem accAt_mid (c : Dev nD) (t : Fin cfg0.N) (h0 : t.val ≠ 0) (h1 : t.val ≠ 63) :
    accAt m c t.val t.isLt = accMid c (grid0.coords t) (inBuf t) (inBuf_whole t) (outBuf t) (outBuf_whole t) acc (Memref.isWhole_whole _) (iblk m c 0 t) (accAt m c (t.val - 1) (pred_lt t)) (not_first_of_pos t h0) (not_last_of_ne t h1) := by
  obtain ⟨n, hn⟩ := t
  cases n with
  | zero => exact absurd rfl h0
  | succ n => exact (dif_neg h1).trans rfl

theorem accAt_last (c : Dev nD) (t : Fin cfg0.N) (h0 : t.val ≠ 0) (h1 : t.val = 63) :
    accAt m c t.val t.isLt = accLast c (grid0.coords t) (inBuf t) (inBuf_whole t) (outBuf t) (outBuf_whole t) acc (Memref.isWhole_whole _) (iblk m c 0 t) (accAt m c (t.val - 1) (pred_lt t)) (not_first_of_pos t h0) ((isLast_iff t).mpr h1) := by
  obtain ⟨n, hn⟩ := t
  cases n with
  | zero => exact absurd rfl h0
  | succ n => exact (dif_pos h1).trans rfl

/-- What the result window's staging buffer holds after the body at point `t`: the last point's store at the last
    point; before it the window is idle and this is a placeholder nothing consults. -/
def outAt (c : Dev nD) (t : Fin cfg0.N) : Vec F S63x2048 .f32 :=
  if h : t.val = 63 then
    outLast c (grid0.coords t) (inBuf t) (inBuf_whole t) (outBuf t) (outBuf_whole t) acc (Memref.isWhole_whole _) (iblk m c 0 t) (accAt m c (t.val - 1) (pred_lt t)) (not_first_of_pos t (by omega)) ((isLast_iff t).mpr h)
  else outView.read (Elt F) outView.junk

theorem outAt_last (c : Dev nD) (t : Fin cfg0.N) (h0 : t.val ≠ 0) (h1 : t.val = 63) :
    outAt m c t = outLast c (grid0.coords t) (inBuf t) (inBuf_whole t) (outBuf t) (outBuf_whole t) acc (Memref.isWhole_whole _) (iblk m c 0 t) (accAt m c (t.val - 1) (pred_lt t)) (not_first_of_pos t h0) ((isLast_iff t).mpr h1) :=
  dif_pos h1

/-! ## The invariant between points -/

/-- Before the first point what the launch hands over (the accumulator at anything); before point `n + 1` the
    accumulator at what point `n` left, and the generator register at some state. -/
def PhiS (c : Dev nD) : (n : ℕ) → n ≤ cfg0.N → sProp 𝕄
  | 0, _ => Pipeline.ΦA spec0 c
  | n + 1, hn => iprop(iprop(owns (c : Thread nD τ) acc fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) acc fullShare (accAt m c (n - 1) (by omega))) ∗ (∃ r, prngReg c r)) := by
  cases n with
  | zero => exact absurd rfl hz
  | succ n => rfl

/-! ## The region's proof data -/

/-- The arrays as the region finds them; after the body at point `t` the batch window's buffer at its block and the
    result window's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]

/-- The batch window's current staging buffer holds its block at every point. -/
theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the batch buffer holds its block; the point is the first, a middle or the last one; the
    invariant hands the body the accumulator at what the point before left (at anything at the first point) and takes it
    back at this point's contents; before the last point the result buffer is handed back untouched, at the last point it
    comes back with the store written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (inBuf t) fullShare ((dats m 0 c).after 0 t) from by
    unfold Dat.leavesExact; rw [live_in t], after_in]
  by_cases h0 : t.val = 0
  · have hl : ¬isLast (grid0.coords t) := not_last_of_ne t (by omega)
    rw [Dat.leavesExact_idle (dats m 0 c) 1 t (idle_out t hl) (noFlush_out t hl)]
    rw [accAt_first m c t h0]
    unfold accFirst; (try dsimp only)
    rw [PhiS_castSucc m c t, PhiS_zero m c _ _ h0, PhiA_eq]
    iintro ⟨⟨HS0, Hg⟩, Ho, ⟨%d0, H0⟩, ⟨%d1, H1⟩⟩
    iapply ((runFirst c (grid0.coords t) _ _ _ _ _ _ ((isFirst_iff t).mpr h0) hl (iblk m c 0 t)).2.2 _ Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact View.read_writes_of_cover _ _ _ _ _ (cover_accFirst c _ _ _ _ _ _ _ _ _ _)
      iexact Hg
    isplitl [Ho]; · iexact Ho
    isplitl [H0]; · iexact H0
    iexists _; iexact H1
  · by_cases h1 : t.val = 63
    · have hl : isLast (grid0.coords t) := (isLast_iff t).mpr h1
      rw [show (dats m 0 c).leavesExact 1 t = owns (c : Thread nD τ) (outBuf t) fullShare ((dats m 0 c).after 1 t) from by
        unfold Dat.leavesExact; rw [live_out t hl], after_out]
      rw [outAt_last m c t h0 h1, accAt_last m c t h0 h1]
      unfold outLast accLast; (try dsimp only)
      rw [PhiS_castSucc m c t, PhiS_pos m c _ _ h0]
      iintro ⟨⟨HS0, Hg⟩, Ho, ⟨%d0, H0⟩, ⟨%d1, H1⟩⟩
      iapply ((runLast c (grid0.coords t) _ _ _ _ _ _ (not_first_of_pos t h0) hl (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover_outLast c _ _ _ _ _ _ _ _ _ _ _)
    · have hl : ¬isLast (grid0.coords t) := not_last_of_ne t h1
      rw [Dat.leavesExact_idle (dats m 0 c) 1 t (idle_out t hl) (noFlush_out t hl)]
      rw [accAt_mid m c t h0 h1]
      unfold accMid; (try dsimp only)
      rw [PhiS_castSucc m c t, PhiS_pos m c _ _ h0]
      iintro ⟨⟨HS0, Hg⟩, Ho, ⟨%d0, H0⟩, ⟨%d1, H1⟩⟩
      iapply ((runMid c (grid0.coords t) _ _ _ _ _ _ (not_first_of_pos t h0) hl (iblk m c 0 t) _).2.2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (cover_accMid c _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the accumulator's contents forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS0, Hg⟩
  isplitl [HS0]
  · iexists _; iexact HS0
  iexact Hg

/-! ## The run and the frame -/

set_option backward.isDefEq.respectTransparency.types false in
/-- Every weakly fair execution of @main on the TensorCore terminates, and every final state has the two arrays of the
    pipeline at what the proof data computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh') (hkeep := tail_keeps)
    (hmain := hmain m Variants.none) (hA := A_eq m) (hin := hin m) (hout := hout m)

/-- THE FRAME: the program runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Mean

end
-- ==== Proof.Ideal.Kit.lean ====
/-
  The batch mean as a pipelined region, and the host lines that follow it.

  @main of this program is ONE region — the sum over the batch axis of a [2048, 63, 2048] array, taken 32 rows at a
  grid point over 64 points into an accumulator the kernel keeps between points, and scaled by 1/2048 into the
  [63, 2048] result at the last point — followed by 96 host operations in thirteen stretches (the two
  inverse-covariance stages and the two graph layers), none of which writes an argument or the region's result.
  This module states what the frame of such an @main stands on: the contents the region is entered with, @main as
  "the region, then the later lines", the later lines' footprint, the two conditions of the body in closed form
  (first point, last point), where the result window is idle, and the frame claim read off a frame run.
-/
import proofs.«101755_j52673478918326_1_alg».proof.Proof.Gen.KernelIdeal.Launch
import proofs.«101755_j52673478918326_1_alg».proof.Proof.Gen.KernelIdeal.Skeleton
import proofs.«101755_j52673478918326_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mean

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the later lines -/

/-- Core `c`'s buffers when the region is entered: @main begins with the region, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The thirteen stretches of host operations after the region, in order: @main's own lines and, at each call, the
    callee's lines over that call's buffers. -/
abbrev tailOps : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12]

/-- A property of every operation of every stretch, from its statement stretch by stretch. -/
theorem forall_mem_of_forall₂ {α : Type _} {p : α → Prop} (opss : List (List α)) (h : opss.Forall fun ops => ops.Forall p) :
    ∀ ops ∈ opss, ∀ op ∈ ops, p op :=
  fun ops ho op h' => (List.forall_iff_forall_mem.mp ((List.forall_iff_forall_mem.mp h) ops ho)) op h'

/-- Every later line touches TensorCore references only. -/
theorem tail_tc : (tailOps : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub,
   hostOps1_8_sub, hostOps1_9_sub, hostOps1_10_sub, hostOps1_11_sub, hostOps1_12_sub⟩

/-- No later line allocates. -/
theorem tail_fresh : (tailOps : List (List (HloOp τ sig (Elt F)))).Forall fun ops => ops.Forall fun op => op.fresh = ∅ := by
  simp only [List.Forall]; repeat' constructor

/-- @main reduces to the region CONTINUED BY the later lines, entered at the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch the pipeline's two arrays and the buffers that bypass the region only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops ho op h => Pipeline.sub_ucRefs op (forall_mem_of_forall₂ _ tail_tc ops ho op h)

theorem tail_fresh' : ∀ ops ∈ (tailOps : List (List (HloOp τ sig (Elt F)))), ∀ op ∈ ops, op.fresh = ∅ :=
  forall_mem_of_forall₂ _ tail_fresh

/-- Each later line writes its own result buffer, one of the 96 buffers numbered after the region's result: a buffer
    `b` that is none of them is written by no line. Closed per buffer by deciding the 96 inequalities. -/
macro "tail_untouched" : tactic => `(tactic| (
  simp only [tailOps, hostOps1, hostOps1_1, hostOps1_2, hostOps1_3, hostOps1_4, hostOps1_5, hostOps1_6, hostOps1_7, hostOps1_8,
    hostOps1_9, hostOps1_10, hostOps1_11, hostOps1_12, List.flatten_cons, List.flatten_nil, List.append_nil, List.cons_append,
    List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem tail_keeps_arg0 : ((tailOps (F := F)).flatten).Forall fun op => Proc.devRef .tc main_arg0 ∉ op.writes := by tail_untouched
theorem tail_keeps_arg1 : ((tailOps (F := F)).flatten).Forall fun op => Proc.devRef .tc main_arg1 ∉ op.writes := by tail_untouched
theorem tail_keeps_arg2 : ((tailOps (F := F)).flatten).Forall fun op => Proc.devRef .tc main_arg2 ∉ op.writes := by tail_untouched
theorem tail_keeps_arg3 : ((tailOps (F := F)).flatten).Forall fun op => Proc.devRef .tc main_arg3 ∉ op.writes := by tail_untouched
theorem tail_keeps_arg4 : ((tailOps (F := F)).flatten).Forall fun op => Proc.devRef .tc main_arg4 ∉ op.writes := by tail_untouched
theorem tail_keeps_arg5 : ((tailOps (F := F)).flatten).Forall fun op => Proc.devRef .tc main_arg5 ∉ op.writes := by tail_untouched
theorem tail_keeps_v0 : ((tailOps (F := F)).flatten).Forall fun op => Proc.devRef .tc main_v0 ∉ op.writes := by tail_untouched

/-- An operation of a stretch is an operation of the flattened list. -/
theorem mem_flatten_of {α : Type _} {opss : List (List α)} {ops : List α} {op : α} (ho : ops ∈ opss) (h : op ∈ ops) :
    op ∈ opss.flatten := List.mem_flatten.mpr ⟨ops, ho, h⟩

/-- No later line writes an array of the pipeline (the batch array, the region's result). -/
theorem tail_keeps : ∀ ops ∈ (tailOps : List (List (HloOp τ sig (Elt F)))), ∀ op ∈ ops,
    ∀ w, Proc.devRef .tc (Pipeline.arrRef spec0 w) ∉ op.writes := by
  intro ops ho op h w
  have hf := mem_flatten_of ho h
  fin_cases w
  · exact (List.forall_iff_forall_mem.mp tail_keeps_arg0) op hf
  · exact (List.forall_iff_forall_mem.mp tail_keeps_v0) op hf

theorem V_main_arg0 (c : Dev nD) : V m c main_arg0 = m ((c : Thread nD τ).loc main_arg0) := rfl

/-! ## The arguments after the later lines -/

/-- An argument the region does not stage ends as launched: no later line writes it, and it is no array of the pipeline. -/
theorem kept_of (dats : (p : Fin 1) → (c : Dev nD) → Dat τ (Elt F) Unit ℕ (UR sig nD τ) ℕ (cfgs p) c) (c : Dev nD)
    (b : Ref sig .tc) (hb : ((tailOps (F := F)).flatten).Forall fun op => Proc.devRef .tc b ∉ op.writes)
    (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (List.forall_iff_forall_mem.mp hb),
    Pipeline.withArrays_of_ne _ c (V0 m c) _ b hne]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The batch window's current staging buffer holds rows 32·t … 32·t+31 at every point `t`, for any proof data whose
    array is the launch contents and whose body leaves the block in place: the window is fetched at every point, uncut
    and never idle. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- For any proof data whose arrays are the launch contents, a run to the frame post read at the six arguments — the
    batch array as a staged input, the other five as buffers that bypass the region and that no later line writes — is
    the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (kept_of m dats c main_arg1 tail_keeps_arg1 (by decide)),
     ((h c).2 main_arg2 (Pipeline.mem_restRefs_of main_arg2 (by decide) (by decide))).trans (kept_of m dats c main_arg2 tail_keeps_arg2 (by decide)),
     ((h c).2 main_arg3 (Pipeline.mem_restRefs_of main_arg3 (by decide) (by decide))).trans (kept_of m dats c main_arg3 tail_keeps_arg3 (by decide)),
     ((h c).2 main_arg4 (Pipeline.mem_restRefs_of main_arg4 (by decide) (by decide))).trans (kept_of m dats c main_arg4 tail_keeps_arg4 (by decide)),
     ((h c).2 main_arg5 (Pipeline.mem_restRefs_of main_arg5 (by decide) (by decide))).trans (kept_of m dats c main_arg5 tail_keeps_arg5 (by decide))⟩) h

/-! ## The body's two conditions, over the grid -/

/-- "This is the first point": the condition under which the accumulator is reset, from the grid coordinate. -/
abbrev isFirst (i : grid0.Coords) : Prop := (Scalar.cmpi .ne (Scalar.extui (Scalar.cmpi .eq (BitVec.ofNat 32 (i 0).val) 0#32)) 0#32) = 1#1
/-- It holds at point 0 only — decided over the 64 points. -/
theorem isFirst_iff : ∀ t : Fin cfg0.N, isFirst (grid0.coords t) ↔ t.val = 0 :=
  (by decide +kernel : ∀ t : Fin grid0.N, isFirst (grid0.coords t) ↔ t.val = 0)

/-- "This is the last point": the condition under which the scaled accumulator is stored into the result block. -/
abbrev isLast (i : grid0.Coords) : Prop := k0_cond2 i = 1#1
/-- It holds at point 63 only — decided over the 64 points. -/
theorem isLast_iff : ∀ t : Fin cfg0.N, isLast (grid0.coords t) ↔ t.val = 63 :=
  (by decide +kernel : ∀ t : Fin grid0.N, isLast (grid0.coords t) ↔ t.val = 63)

/-! ## Where the windows are idle -/

/-- The batch window is never idle. -/
theorem live_in : ∀ t : Fin cfg0.N, cfg0.idle 0 (grid0.coords t) = false := by decide +kernel
/-- Before the last point the result window is idle: the body stores nothing into it, -/
theorem idle_out : ∀ t : Fin cfg0.N, ¬isLast (grid0.coords t) → cfg0.idle 1 (grid0.coords t) = true := by decide +kernel
/-- and the pipeline does not write its block back there. -/
theorem noFlush_out : ∀ t : Fin cfg0.N, ¬isLast (grid0.coords t) → (cfg0.win 1).flush t = false := by decide +kernel
/-- At the last point the result window is live. -/
theorem live_out : ∀ t : Fin cfg0.N, isLast (grid0.coords t) → cfg0.idle 1 (grid0.coords t) = false := by decide +kernel

/-! ## The memrefs the body is called with -/

/-- One staging buffer of the result window, through which its contents are stated. -/
abbrev outView : View sig .tc .vmem S63x2048 .f32 := (Memref.whole cc0_stg1_0 : Memref sig .tc .vmem S63x2048 .f32).view
/-- Each window's current staging memref at point `t`, as the pipeline passes it, and its wholeness. -/
abbrev inBuf (t : Fin cfg0.N) : Memref sig .tc .vmem S32x63x2048 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S63x2048 .f32 := win0_1.stage (cfg0.slots t 1)
abbrev outBuf_whole (t : Fin cfg0.N) : (outBuf t).IsWhole := hstage0_1 ((cfg0.slots t 1).cast nbuf0_1)
/-- The accumulator: a whole scoped buffer of the kernel's own, passed beside the windows and kept between points. -/
abbrev acc : Memref sig .tc .vmem S63x2048 .f32 := Memref.whole cc0_scratch0
/-- The accumulator as a view: what it holds is stated through it. -/
abbrev accView : View sig .tc .vmem S63x2048 .f32 := acc.view

/-- What the launch hands the region besides the windows: the accumulator at some contents and the generator register
    at some state. -/
theorem PhiA_eq (c : Dev nD) :
    (Pipeline.ΦA spec0 c : sProp 𝕄)
      = iprop(iprop((∃ d, owns (c : Thread nD τ) acc fullShare d)) ∗ (∃ r, prngReg c r)) := by
  unfold Pipeline.ΦA; rw [scopedRest0_eq]; simp only [acc, owns_whole]; try rfl

end Cert.KernelIdeal.Mean

end
-- ==== Proof.Ideal.RunFirst.lean ====
/-
  The body at the FIRST grid point (the reset is taken, the final store is not).

  On whole memrefs — the batch block at `x0`, the result buffer at `xi` (idle here: handed back untouched), the
  accumulator at anything — the body stores zeros into the accumulator, reads them back, adds the block's sum over its
  32 rows and stores the sum: the accumulator ends with those two stores written, last first. The stores are the
  witness the symbolic run finds; what they amount to is read off in the frame module.
-/
import proofs.«101755_j52673478918326_1_alg».proof.Proof.Ideal.Kit

set_option maxRecDepth 16384

noncomputable section

namespace Cert.KernelIdeal.Mean

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's stores at the first point (last first), with the body's triple there. -/
noncomputable def runFirst (c : Dev nD) (i : grid0.Coords) (arg1 : Memref sig .tc .vmem S32x63x2048 .f32) (harg1 : arg1.IsWhole)
    (arg2 : Memref sig .tc .vmem S63x2048 .f32) (harg2 : arg2.IsWhole) (arg3 : Memref sig .tc .vmem S63x2048 .f32) (harg3 : arg3.IsWhole)
    (hf : isFirst i) (hl : ¬isLast i) (x0 : Vec F S32x63x2048 .f32) :
    Σ' (L1 : List (View.Piece (Elt F) S63x2048 .f32)), { LS : List (View.Piece (Elt F) S63x2048 .f32) //
      ∀ (xi : Vec F S63x2048 .f32) (E : Set ℕ) (K : PUnit → sProp 𝕄),
        iprop(owns (c : Thread nD τ) arg1 fullShare x0 ∗ owns (c : Thread nD τ) arg2 fullShare xi ∗ (∃ d, owns (c : Thread nD τ) arg3 fullShare d)
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LS)) -∗ K ⟨⟩))
          ⊢ wp frame (wpE (defs₀ (F := F)) Variants.none c none) E (cc0__mean_kernel i arg1 harg1 arg2 harg2 arg3 harg3) K } := by
  refine ⟨[], ?_, fun xi E K => ?run⟩
  case run =>
    simp only [cc0__mean_kernel_eq_skeleton]; unfold cc0__mean_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Mean

end
-- ==== Proof.Ideal.RunMid.lean ====
/-
  The body at a MIDDLE grid point (neither the reset nor the final store is taken).

  On whole memrefs — the batch block at `x0`, the result buffer at `xi` (idle: handed back untouched), the
  accumulator at what the point before left, `xs` — the body adds the block's sum over its 32 rows to the accumulator
  and stores it back: one store.
-/
import proofs.«101755_j52673478918326_1_alg».proof.Proof.Ideal.RunFirst

set_option maxRecDepth 16384

noncomputable section

namespace Cert.KernelIdeal.Mean

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The accumulator's store at a middle point, with the body's triple there. -/
noncomputable def runMid (c : Dev nD) (i : grid0.Coords) (arg1 : Memref sig .tc .vmem S32x63x2048 .f32) (harg1 : arg1.IsWhole)
    (arg2 : Memref sig .tc .vmem S63x2048 .f32) (harg2 : arg2.IsWhole) (arg3 : Memref sig .tc .vmem S63x2048 .f32) (harg3 : arg3.IsWhole)
    (hf : ¬isFirst i) (hl : ¬isLast i) (x0 : Vec F S32x63x2048 .f32) (xs : Vec F S63x2048 .f32) :
    Σ' (L1 : List (View.Piece (Elt F) S63x2048 .f32)), { LS : List (View.Piece (Elt F) S63x2048 .f32) //
      ∀ (xi : Vec F S63x2048 .f32) (E : Set ℕ) (K : PUnit → sProp 𝕄),
        iprop(owns (c : Thread nD τ) arg1 fullShare x0 ∗ owns (c : Thread nD τ) arg2 fullShare xi ∗ owns (c : Thread nD τ) arg3 fullShare xs
            ∗ (iprop(owns (c : Thread nD τ) arg1 fullShare x0 ∗ owns (c : Thread nD τ) arg2 fullShare xi ∗ (∃ f, arg3.view.loc (c : Thread nD τ) ↦[arg3.view.set]{fullShare} arg3.view.writes (Elt F) f LS)) -∗ K ⟨⟩))
          ⊢ wp frame (wpE (defs₀ (F := F)) Variants.none c none) E (cc0__mean_kernel i arg1 harg1 arg2 harg2 arg3 harg3) K } := by
  refine ⟨[], ?_, fun xi E K => ?run⟩
  case run =>
    simp only [cc0__mean_kernel_eq_skeleton]; unfold cc0__mean_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Mean

end
-- ==== Proof.Ideal.RunLast.lean ====
/-
  The body at the LAST grid point (the reset is not taken, the final store is).

  On whole memrefs — the batch block at `x0`, the result buffer at anything, the accumulator at what the point
  before left, `xs` — the body adds the block's sum to the accumulator, stores it back, reads it again and stores its
  product with 1/2048 into the result buffer: one store into each.
-/
import proofs.«101755_j52673478918326_1_alg».proof.Proof.Ideal.RunMid

set_option maxRecDepth 16384

noncomputable section

namespace Cert.KernelIdeal.Mean

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The result buffer's store and the accumulator's store at the last point, with the body's triple there. -/
noncomputable def runLast (c : Dev nD) (i : grid0.Coords) (arg1 : Memref sig .tc .vmem S32x63x2048 .f32) (harg1 : arg1.IsWhole)
    (arg2 : Memref sig .tc .vmem S63x2048 .f32) (harg2 : arg2.IsWhole) (arg3 : Memref sig .tc .vmem S63x2048 .f32) (harg3 : arg3.IsWhole)
    (hf : ¬isFirst i) (hl : isLast i) (x0 : Vec F S32x63x2048 .f32) (xs : Vec F S63x2048 .f32) :
    Σ' (L1 : List (View.Piece (Elt F) S63x2048 .f32)), { LS : List (View.Piece (Elt F) S63x2048 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS)) -∗ K ⟨⟩))
          ⊢ wp frame (wpE (defs₀ (F := F)) Variants.none c none) E (cc0__mean_kernel i arg1 harg1 arg2 harg2 arg3 harg3) K } := by
  refine ⟨?_, ?_, fun E K => ?run⟩
  case run =>
    simp only [cc0__mean_kernel_eq_skeleton]; unfold cc0__mean_kernel_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hf | exact hl)
    sl_step
    iapply Hk
    isplitl [H0]
    · iexists _; isplitr; · ipureintro; exact harg1.read_unread _
      iexact H0
    isplitl [H1]; · iexists _; iexact H1
    iexists _; iexact HS0

end Cert.KernelIdeal.Mean

end
-- ==== Proof.Ideal.Frame.lean ====
/-
  The frame of the batch-mean program: point by point what the accumulator holds, the region's proof data, the body
  obligation, the run of @main and its frame.

  The accumulator is reset and first added to at point 0, added to at points 1 … 62, added to and read out (scaled)
  at point 63; the result window is idle until point 63, where it is stored whole and written back. So the
  accumulator after point n is a recursion on n (`accAt`), the invariant between points holds it at exactly that, and
  the result buffer after the last point holds the last point's store over `accAt 62`.
-/
import proofs.«101755_j52673478918326_1_alg».proof.Proof.Ideal.RunLast

set_option maxRecDepth 16384

noncomputable section

namespace Cert.KernelIdeal.Mean

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back from its stores -/

section Cases
variable (c : Dev nD) (i : grid0.Coords) (arg1 : Memref sig .tc .vmem S32x63x2048 .f32) (harg1 : arg1.IsWhole)
  (arg2 : Memref sig .tc .vmem S63x2048 .f32) (harg2 : arg2.IsWhole) (arg3 : Memref sig .tc .vmem S63x2048 .f32) (harg3 : arg3.IsWhole)
  (x0 : Vec F S32x63x2048 .f32) (xs : Vec F S63x2048 .f32)

/-- The first point's two stores into the accumulator cover it. -/
theorem cover_accFirst (hf : isFirst i) (hl : ¬isLast i) (y : S63x2048.Idx) :
    ∃ pc ∈ (runFirst c i arg1 harg1 arg2 harg2 arg3 harg3 hf hl x0).2.1, y ∈ pc.1.set :=
  View.cover_of_tiledL (runFirst c i arg1 harg1 arg2 harg2 arg3 harg3 hf hl x0).2.1 S63x2048.size (by sl_kernel_rfl) y
/-- What the first point leaves in the accumulator. -/
def accFirst (hf : isFirst i) (hl : ¬isLast i) : Vec F S63x2048 .f32 :=
  accView.read (Elt F) (accView.writes (Elt F) accView.junk (runFirst c i arg1 harg1 arg2 harg2 arg3 harg3 hf hl x0).2.1)

/-- A middle point's store into the accumulator covers it. -/
theorem cover_accMid (hf : ¬isFirst i) (hl : ¬isLast i) (y : S63x2048.Idx) :
    ∃ pc ∈ (runMid c i arg1 harg1 arg2 harg2 arg3 harg3 hf hl x0 xs).2.1, y ∈ pc.1.set :=
  View.cover_of_tiledL (runMid c i arg1 harg1 arg2 harg2 arg3 harg3 hf hl x0 xs).2.1 S63x2048.size (by sl_kernel_rfl) y
/-- What a middle point leaves in the accumulator, over what the point before left. -/
def accMid (hf : ¬isFirst i) (hl : ¬isLast i) : Vec F S63x2048 .f32 :=
  accView.read (Elt F) (accView.writes (Elt F) accView.junk (runMid c i arg1 harg1 arg2 harg2 arg3 harg3 hf hl x0 xs).2.1)

/-- The last point's store into the accumulator covers it, -/
theorem cover_accLast (hf : ¬isFirst i) (hl : isLast i) (y : S63x2048.Idx) :
    ∃ pc ∈ (runLast c i arg1 harg1 arg2 harg2 arg3 harg3 hf hl x0 xs).2.1, y ∈ pc.1.set :=
  View.cover_of_tiledL (runLast c i arg1 harg1 arg2 harg2 arg3 harg3 hf hl x0 xs).2.1 S63x2048.size (by sl_kernel_rfl) y
/-- and its store into the result buffer covers that. -/
theorem cover_outLast (hf : ¬isFirst i) (hl : isLast i) (y : S63x2048.Idx) :
    ∃ pc ∈ (runLast c i arg1 harg1 arg2 harg2 arg3 harg3 hf hl x0 xs).1, y ∈ pc.1.set :=
  View.cover_of_tiledL (runLast c i arg1 harg1 arg2 harg2 arg3 harg3 hf hl x0 xs).1 S63x2048.size (by sl_kernel_rfl) y
/-- What the last point leaves in the accumulator, -/
def accLast (hf : ¬isFirst i) (hl : isLast i) : Vec F S63x2048 .f32 :=
  accView.read (Elt F) (accView.writes (Elt F) accView.junk (runLast c i arg1 harg1 arg2 harg2 arg3 harg3 hf hl x0 xs).2.1)
/-- and in the result buffer. -/
def outLast (hf : ¬isFirst i) (hl : isLast i) : Vec F S63x2048 .f32 :=
  outView.read (Elt F) (outView.writes (Elt F) outView.junk (runLast c i arg1 harg1 arg2 harg2 arg3 harg3 hf hl x0 xs).1)

end Cases

/-! ## The accumulator and the result buffer, point by point -/

theorem not_first_of_pos (t : Fin cfg0.N) (h : t.val ≠ 0) : ¬isFirst (grid0.coords t) := fun hf => h ((isFirst_iff t).mp hf)
theorem not_last_of_ne (t : Fin cfg0.N) (h : t.val ≠ 63) : ¬isLast (grid0.coords t) := fun hl => h ((isLast_iff t).mp hl)

/-- THE ACCUMULATION: what the accumulator holds after the body at point `n` — the first point's contents at 0, and
    at a later point that point's store over what the point before left. -/
def accAt (c : Dev nD) : (n : ℕ) → n < cfg0.N → Vec F S63x2048 .f32
  | 0, hn => accFirst c (grid0.coords ⟨0, hn⟩) (inBuf ⟨0, hn⟩) (inBuf_whole ⟨0, hn⟩) (outBuf ⟨0, hn⟩) (outBuf_whole ⟨0, hn⟩) acc (Memref.isWhole_whole _) (iblk m c 0 ⟨0, hn⟩) ((isFirst_iff ⟨0, hn⟩).mpr rfl) (not_last_of_ne ⟨0, hn⟩ (by show (0 : ℕ) ≠ 63; omega))
  | n + 1, hn =>
    if h : n + 1 = 63 then
      accLast c (grid0.coords ⟨n + 1, hn⟩) (inBuf ⟨n + 1, hn⟩) (inBuf_whole ⟨n + 1, hn⟩) (outBuf ⟨n + 1, hn⟩) (outBuf_whole ⟨n + 1, hn⟩) acc (Memref.isWhole_whole _) (iblk m c 0 ⟨n + 1, hn⟩) (accAt c n (Nat.lt_of_succ_lt hn)) (not_first_of_pos ⟨n + 1, hn⟩ (Nat.succ_ne_zero n)) ((isLast_iff ⟨n + 1, hn⟩).mpr h)
    else
      accMid c (grid0.coords ⟨n + 1, hn⟩) (inBuf ⟨n + 1, hn⟩) (inBuf_whole ⟨n + 1, hn⟩) (outBuf ⟨n + 1, hn⟩) (outBuf_whole ⟨n + 1, hn⟩) acc (Memref.isWhole_whole _) (iblk m c 0 ⟨n + 1, hn⟩) (accAt c n (Nat.lt_of_succ_lt hn)) (not_first_of_pos ⟨n + 1, hn⟩ (Nat.succ_ne_zero n)) (not_last_of_ne ⟨n + 1, hn⟩ h)

theorem pred_lt (t : Fin cfg0.N) : t.val - 1 < cfg0.N := Nat.lt_of_le_of_lt (Nat.sub_le _ _) t.isLt

theorem accAt_first (c : Dev nD) (t : Fin cfg0.N) (h0 : t.val = 0) :
    accAt m c t.val t.isLt = accFirst c (grid0.coords t) (inBuf t) (inBuf_whole t) (outBuf t) (outBuf_whole t) acc (Memref.isWhole_whole _) (iblk m c 0 t) ((isFirst_iff t).mpr h0) (not_last_of_ne t (by omega)) := by
  obtain ⟨n, hn⟩ := t
  cases n with
  | zero => exact rfl
  | succ n => exact absurd h0 (Nat.succ_ne_zero n)

theorem accAt_mid (c : Dev nD) (t : Fin cfg0.N) (h0 : t.val ≠ 0) (h1 : t.val ≠ 63) :
    accAt m c t.val t.isLt = accMid c (grid0.coords t) (inBuf t) (inBuf_whole t) (outBuf t) (outBuf_whole t) acc (Memref.isWhole_whole _) (iblk m c 0 t) (accAt m c (t.val - 1) (pred_lt t)) (not_first_of_pos t h0) (not_last_of_ne t h1) := by
  obtain ⟨n, hn⟩ := t
  cases n with
  | zero => exact absurd rfl h0
  | succ n => exact (dif_neg h1).trans rfl

theorem accAt_last (c : Dev nD) (t : Fin cfg0.N) (h0 : t.val ≠ 0) (h1 : t.val = 63) :
    accAt m c t.val t.isLt = accLast c (grid0.coords t) (inBuf t) (inBuf_whole t) (outBuf t) (outBuf_whole t) acc (Memref.isWhole_whole _) (iblk m c 0 t) (accAt m c (t.val - 1) (pred_lt t)) (not_first_of_pos t h0) ((isLast_iff t).mpr h1) := by
  obtain ⟨n, hn⟩ := t
  cases n with
  | zero => exact absurd rfl h0
  | succ n => exact (dif_pos h1).trans rfl

/-- What the result window's staging buffer holds after the body at point `t`: the last point's store at the last
    point; before it the window is idle and this is a placeholder nothing consults. -/
def outAt (c : Dev nD) (t : Fin cfg0.N) : Vec F S63x2048 .f32 :=
  if h : t.val = 63 then
    outLast c (grid0.coords t) (inBuf t) (inBuf_whole t) (outBuf t) (outBuf_whole t) acc (Memref.isWhole_whole _) (iblk m c 0 t) (accAt m c (t.val - 1) (pred_lt t)) (not_first_of_pos t (by omega)) ((isLast_iff t).mpr h)
  else outView.read (Elt F) outView.junk

theorem outAt_last (c : Dev nD) (t : Fin cfg0.N) (h0 : t.val ≠ 0) (h1 : t.val = 63) :
    outAt m c t = outLast c (grid0.coords t) (inBuf t) (inBuf_whole t) (outBuf t) (outBuf_whole t) acc (Memref.isWhole_whole _) (iblk m c 0 t) (accAt m c (t.val - 1) (pred_lt t)) (not_first_of_pos t h0) ((isLast_iff t).mpr h1) :=
  dif_pos h1

/-! ## The invariant between points -/

/-- Before the first point what the launch hands over (the accumulator at anything); before point `n + 1` the
    accumulator at what point `n` left, and the generator register at some state. -/
def PhiS (c : Dev nD) : (n : ℕ) → n ≤ cfg0.N → sProp 𝕄
  | 0, _ => Pipeline.ΦA spec0 c
  | n + 1, hn => iprop(iprop(owns (c : Thread nD τ) acc fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) acc fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) acc fullShare (accAt m c (n - 1) (by omega))) ∗ (∃ r, prngReg c r)) := by
  cases n with
  | zero => exact absurd rfl hz
  | succ n => rfl

/-! ## The region's proof data -/

/-- The arrays as the region finds them; after the body at point `t` the batch window's buffer at its block and the
    result window's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]

/-- The batch window's current staging buffer holds its block at every point. -/
theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inBuf t) fullShare ((dats m 0 c).before 0 t d))
    ∗ (∃ d, owns (c : Thread nD τ) (outBuf t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the batch buffer holds its block; the point is the first, a middle or the last one; the
    invariant hands the body the accumulator at what the point before left (at anything at the first point) and takes it
    back at this point's contents; before the last point the result buffer is handed back untouched, at the last point it
    comes back with the store written. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (inBuf t) fullShare ((dats m 0 c).after 0 t) from by
    unfold Dat.leavesExact; rw [live_in t], after_in]
  by_cases h0 : t.val = 0
  · have hl : ¬isLast (grid0.coords t) := not_last_of_ne t (by omega)
    rw [Dat.leavesExact_idle (dats m 0 c) 1 t (idle_out t hl) (noFlush_out t hl)]
    rw [accAt_first m c t h0]
    unfold accFirst; (try dsimp only)
    rw [PhiS_castSucc m c t, PhiS_zero m c _ _ h0, PhiA_eq]
    iintro ⟨⟨HS0, Hg⟩, Ho, ⟨%d0, H0⟩, ⟨%d1, H1⟩⟩
    iapply ((runFirst c (grid0.coords t) _ _ _ _ _ _ ((isFirst_iff t).mpr h0) hl (iblk m c 0 t)).2.2 _ Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact View.read_writes_of_cover _ _ _ _ _ (cover_accFirst c _ _ _ _ _ _ _ _ _ _)
      iexact Hg
    isplitl [Ho]; · iexact Ho
    isplitl [H0]; · iexact H0
    iexists _; iexact H1
  · by_cases h1 : t.val = 63
    · have hl : isLast (grid0.coords t) := (isLast_iff t).mpr h1
      rw [show (dats m 0 c).leavesExact 1 t = owns (c : Thread nD τ) (outBuf t) fullShare ((dats m 0 c).after 1 t) from by
        unfold Dat.leavesExact; rw [live_out t hl], after_out]
      rw [outAt_last m c t h0 h1, accAt_last m c t h0 h1]
      unfold outLast accLast; (try dsimp only)
      rw [PhiS_castSucc m c t, PhiS_pos m c _ _ h0]
      iintro ⟨⟨HS0, Hg⟩, Ho, ⟨%d0, H0⟩, ⟨%d1, H1⟩⟩
      iapply ((runLast c (grid0.coords t) _ _ _ _ _ _ (not_first_of_pos t h0) hl (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (cover_accLast c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover_outLast c _ _ _ _ _ _ _ _ _ _ _)
    · have hl : ¬isLast (grid0.coords t) := not_last_of_ne t h1
      rw [Dat.leavesExact_idle (dats m 0 c) 1 t (idle_out t hl) (noFlush_out t hl)]
      rw [accAt_mid m c t h0 h1]
      unfold accMid; (try dsimp only)
      rw [PhiS_castSucc m c t, PhiS_pos m c _ _ h0]
      iintro ⟨⟨HS0, Hg⟩, Ho, ⟨%d0, H0⟩, ⟨%d1, H1⟩⟩
      iapply ((runMid c (grid0.coords t) _ _ _ _ _ _ (not_first_of_pos t h0) hl (iblk m c 0 t) _).2.2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (cover_accMid c _ _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the accumulator's contents forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS0, Hg⟩
  isplitl [HS0]
  · iexists _; iexact HS0
  iexact Hg

/-! ## The run and the frame -/

set_option backward.isDefEq.respectTransparency.types false in
/-- Every weakly fair execution of @main on the TensorCore terminates, and every final state has the two arrays of the
    pipeline at what the proof data computes and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh') (hkeep := tail_keeps)
    (hmain := hmain m Variants.none) (hA := A_eq m) (hin := hin m) (hout := hout m)

/-- THE FRAME: the program runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Mean

end
-- ==== Proof.Ideal.Pieces.lean ====
/-
  What each case of the body leaves, as VALUES of the skeleton's payloads.

  The stores the three runs found, read back: the first point leaves (0 + Σ₃₂ x) in the accumulator — the zero block
  stored, read back, and the block's sum over its 32 rows added —, a later point leaves (acc + Σ₃₂ x), and the last
  point moreover leaves (acc + Σ₃₂ x) · 2⁻¹¹ in the result buffer. `k0_pay1` is the zero block, `k0_pay2 a x` is
  `a + Σ₃₂ x`, `k0_pay3 a` is `a · 2⁻¹¹`.
-/
import proofs.«101755_j52673478918326_1_alg».proof.Proof.Ideal.Frame
import Idealize.ShloMosaic.Lib.Pipeline.Value

set_option maxRecDepth 16384

noncomputable section

namespace Cert.KernelIdeal.Mean

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg1 : Memref sig .tc .vmem S32x63x2048 .f32) (harg1 : arg1.IsWhole)
  (arg2 : Memref sig .tc .vmem S63x2048 .f32) (harg2 : arg2.IsWhole) (arg3 : Memref sig .tc .vmem S63x2048 .f32) (harg3 : arg3.IsWhole)
  (x0 : Vec F S32x63x2048 .f32) (xs : Vec F S63x2048 .f32)

/-- A middle point leaves `acc + Σ₃₂ x`. -/
theorem accMid_eq (hf : ¬isFirst i) (hl : ¬isLast i) :
    accMid c i arg1 harg1 arg2 harg2 arg3 harg3 x0 xs hf hl = k0_pay2 xs x0 := by
  unfold accMid
  rw [View.read_writes_eq_canon _ _ _ (cover_accMid c i arg1 harg1 arg2 harg2 arg3 harg3 x0 xs hf hl)]
  unfold runMid
  dsimp only
  sl_unfold_words
  rw [View.canon_unit_zero hz2]
  simp only [View.readAt_eq_ld, harg1.read_unread, harg3.read_unread, View.ld_unit_zero (S := S63x2048) hz2,
    View.ld_unit_zero (S := S32x63x2048) hz3]

/-- The first point leaves `0 + Σ₃₂ x`. -/
theorem accFirst_eq (hf : isFirst i) (hl : ¬isLast i) :
    accFirst c i arg1 harg1 arg2 harg2 arg3 harg3 x0 hf hl = k0_pay2 (k0_pay1 (F := F)) x0 := by
  unfold accFirst
  rw [View.read_writes_eq_canon _ _ _ (cover_accFirst c i arg1 harg1 arg2 harg2 arg3 harg3 x0 hf hl)]
  unfold runFirst
  dsimp only
  sl_unfold_words
  rw [View.canon_cons_unit_zero (S := S63x2048) hz2, View.readCov_unit_zero (S := S63x2048) _ hz2]
  simp only [View.readAt_eq_ld, harg1.read_unread, View.ld_unit_zero (S := S63x2048) hz2,
    View.ld_unit_zero (S := S32x63x2048) hz3]

/-- The last point leaves `acc + Σ₃₂ x` in the accumulator -/
theorem accLast_eq (hf : ¬isFirst i) (hl : isLast i) :
    accLast c i arg1 harg1 arg2 harg2 arg3 harg3 x0 xs hf hl = k0_pay2 xs x0 := by
  unfold accLast
  rw [View.read_writes_eq_canon _ _ _ (cover_accLast c i arg1 harg1 arg2 harg2 arg3 harg3 x0 xs hf hl)]
  unfold runLast
  dsimp only
  sl_unfold_words
  rw [View.canon_unit_zero hz2]
  simp only [View.readAt_eq_ld, harg1.read_unread, harg3.read_unread, View.ld_unit_zero (S := S63x2048) hz2,
    View.ld_unit_zero (S := S32x63x2048) hz3]

/-- and its product with 2⁻¹¹ in the result buffer. -/
theorem outLast_eq (hf : ¬isFirst i) (hl : isLast i) :
    outLast c i arg1 harg1 arg2 harg2 arg3 harg3 x0 xs hf hl = k0_pay3 (k0_pay2 xs x0) := by
  unfold outLast
  rw [View.read_writes_eq_canon _ _ _ (cover_outLast c i arg1 harg1 arg2 harg2 arg3 harg3 x0 xs hf hl)]
  unfold runLast
  dsimp only
  sl_unfold_words
  rw [View.canon_unit_zero hz2]
  simp only [View.readCov_unit_zero (S := S63x2048) _ hz2, View.readAt_eq_ld, harg1.read_unread, harg3.read_unread,
    View.ld_unit_zero (S := S63x2048) hz2, View.ld_unit_zero (S := S32x63x2048) hz3]

end

end Cert.KernelIdeal.Mean

end
-- ==== Proof.Tail.lean ====
/-
  What follows the batch mean, as ONE function of the mean and the five small arguments.

  Both programs apply the same host computation to the [63, 2048] mean `lg`: with `normAdj G adj` the adjacency
  normalisation of a 63×63 Gram matrix `G` —
      xn = sqrt ((G − max G) / (min G − max G)),   s = adj ⊙ (xn / trace xn),   S = s / rowsum s  (a zero row sum read as 1)
  — the three results are
      S1 = normAdj (lg lgᵀ) adj,
      l1 = S1 · (relu (lg W1ᵀ + b1) re-laid [63,1024] → [1024,63])ᵀ,
      S2 = normAdj (l1 l1ᵀ) adj,
      l2 = S2 · (relu (l1 W2ᵀ + b2) re-laid [63,300] → [300,63])ᵀ.
  The certificate never opens these functions: it shows that each program's later lines compute them of that program's
  mean, and that the two means are equal.
-/
import proofs.«101755_j52673478918326_1_alg».proof.Proof.Gen.KernelIdeal

noncomputable section

namespace Cert.KernelIdeal.Tail

open Cert.KernelIdeal Cert.KernelIdeal.Gen Idealize.ShloMosaic Idealize.SL.Sem

variable {F : FTy → Type} [FloatOps F]

/-- A float tensor value of shape `S`. -/
abbrev M (F : FTy → Type) (S : Shape) : Type := (⟨S, .f32⟩ : BufTy).Contents (Elt F)

/-- `X Xᵀ` of a [63, 2048] matrix. -/
def gram1 (X : M F S63x2048) : M F S63x63 :=
  Host.dotGeneral dot_S63x2048_S2048x63_S63x63_1_0_0_1_n_n none X (transpose S2048x63 [1, 0] X transposes_S63x2048_S2048x63_1_0)

/-- `X Xᵀ` of a [63, 1024] matrix. -/
def gram2 (X : M F S63x1024) : M F S63x63 :=
  Host.dotGeneral dot_S63x1024_S1024x63_S63x63_1_0_0_1_n_n none X (transpose S1024x63 [1, 0] X transposes_S63x1024_S1024x63_1_0)

/-- The trace of a 63×63 matrix: the sum of the entries where the row index equals the column index (zero elsewhere). -/
def trace (x : M F S63x63) : M F S_ :=
  Host.reduceAdd
    (select (cmpi .eq (addi (iotaInDim S63x63 32 0) (broadcastInDim S63x63 ![] bcast_S_S63x63 (constantI S_ 32 0#32))) (iotaInDim S63x63 32 1))
      x (broadcastInDim S63x63 ![] bcast_S_S63x63 (constant S_ .f32 0x00000000#32)))
    (constant S_ .f32 0x00000000#32) reducesTo_S63x63_S_d0_1 h_S_

/-- The adjacency normalisation of a Gram matrix: entries rescaled between its maximum and minimum, square-rooted,
    divided by the trace, masked by `adj`, and each row divided by its sum (a zero sum read as one). -/
def normAdj (x : M F S63x63) (adj : M F S63x63) : M F S63x63 :=
  let mn : M F S_ := Host.reduce FloatOps.maximumf x (constant S_ .f32 0xFF800000#32) reducesTo_S63x63_S_d0_1 h_S_
  let mx : M F S_ := Host.reduce FloatOps.minimumf x (constant S_ .f32 0x7F800000#32) reducesTo_S63x63_S_d0_1 h_S_
  let xn : M F S63x63 := Host.sqrt (Host.divf (subf x (broadcastInDim S63x63 ![] bcast_S_S63x63 mn)) (broadcastInDim S63x63 ![] bcast_S_S63x63 (subf mx mn)))
  let s : M F S63x63 := mulf adj (Host.divf xn (broadcastInDim S63x63 ![] bcast_S_S63x63 (trace xn)))
  let row : M F S63x1 := broadcastInDim S63x1 ![0] bcast_S63_S63x1_0 (Host.reduceAdd s (constant S_ .f32 0x00000000#32) reducesTo_S63x63_S63_d1 h_S_)
  let row' : M F S63x1 := select (cmpf .oeq row (broadcastInDim S63x1 ![] bcast_S_S63x1 (constant S_ .f32 0x00000000#32)))
    (broadcastInDim S63x1 ![] bcast_S_S63x1 (constant S_ .f32 0x3F800000#32)) row
  Host.divf s (broadcastInDim S63x63 ![0, 1] bcast_S63x1_S63x63_0_1 row')

/-- The first graph layer: `S · (relu (X W1ᵀ + b1) re-laid as [1024, 63])ᵀ`. -/
def layer1 (X : M F S63x2048) (W1 : M F S1024x2048) (b1 : M F S1024) (S : M F S63x63) : M F S63x1024 :=
  let pre : M F S63x1024 := addf
    (Host.dotGeneral dot_S63x2048_S2048x1024_S63x1024_1_0_0_1_n_n none X (transpose S2048x1024 [1, 0] W1 transposes_S1024x2048_S2048x1024_1_0))
    (broadcastInDim S63x1024 ![0, 1] bcast_S1x1024_S63x1024_0_1 (broadcastInDim S1x1024 ![1] bcast_S1024_S1x1024_1 b1))
  let act : M F S63x1024 := maximumf pre (broadcastInDim S63x1024 ![] bcast_S_S63x1024 (constant S_ .f32 0x00000000#32))
  let mr : M F S1024x63 := fun i => shapeCast S1024x63 act shapeCasts_S63x1024_S1024x63 i
  Host.dotGeneral dot_S63x63_S63x1024_S63x1024_1_0_0_1_n_n none S (transpose S63x1024 [1, 0] mr transposes_S1024x63_S63x1024_1_0)

/-- The second graph layer: `S · (relu (X W2ᵀ + b2) re-laid as [300, 63])ᵀ`. -/
def layer2 (X : M F S63x1024) (W2 : M F S300x1024) (b2 : M F S300) (S : M F S63x63) : M F S63x300 :=
  let pre : M F S63x300 := addf
    (Host.dotGeneral dot_S63x1024_S1024x300_S63x300_1_0_0_1_n_n none X (transpose S1024x300 [1, 0] W2 transposes_S300x1024_S1024x300_1_0))
    (broadcastInDim S63x300 ![0, 1] bcast_S1x300_S63x300_0_1 (broadcastInDim S1x300 ![1] bcast_S300_S1x300_1 b2))
  let act : M F S63x300 := maximumf pre (broadcastInDim S63x300 ![] bcast_S_S63x300 (constant S_ .f32 0x00000000#32))
  let mr : M F S300x63 := fun i => shapeCast S300x63 act shapeCasts_S63x300_S300x63 i
  Host.dotGeneral dot_S63x63_S63x300_S63x300_1_0_0_1_n_n none S (transpose S63x300 [1, 0] mr transposes_S300x63_S63x300_1_0)

/-- The four values of the tail, of the mean `lg` and the small arguments. -/
def S1 (lg : M F S63x2048) (adj : M F S63x63) : M F S63x63 := normAdj (gram1 lg) adj
def l1 (lg : M F S63x2048) (adj : M F S63x63) (W1 : M F S1024x2048) (b1 : M F S1024) : M F S63x1024 := layer1 lg W1 b1 (S1 lg adj)
def S2 (lg : M F S63x2048) (adj : M F S63x63) (W1 : M F S1024x2048) (b1 : M F S1024) : M F S63x63 := normAdj (gram2 (l1 lg adj W1 b1)) adj
def l2 (lg : M F S63x2048) (adj : M F S63x63) (W1 : M F S1024x2048) (b1 : M F S1024) (W2 : M F S300x1024) (b2 : M F S300) : M F S63x300 :=
  layer2 (l1 lg adj W1 b1) W2 b2 (S2 lg adj W1 b1)

end Cert.KernelIdeal.Tail

end
-- ==== Proof.KernelTail.lean ====
/-
  The idealized kernel's later lines compute the tail functions: folded over any buffer contents `W`, the thirteen
  stretches after the region leave `S1`, `S2` and `l2` of the region's result `W main_v0` (the mean) and of the
  five small arguments in the three result buffers. Each is the fold read at that buffer — every operation's result at
  its own buffer is its function of its operands' buffers, at any other buffer what was there — and then the same term
  as the tail function, which is its definition unfolded.
-/
import proofs.«101755_j52673478918326_1_alg».proof.Proof.Ideal.Kit
import proofs.«101755_j52673478918326_1_alg».proof.Proof.Tail
import Idealize.ShloMosaic.Lib.StableHlo.Run

set_option maxRecDepth 16384

noncomputable section

namespace Cert.KernelIdeal.Mean

open Cert.KernelIdeal.Gen Idealize.ShloMosaic Idealize.ShloMosaic.TcCoe Idealize.SL.Sem Idealize.ShloMosaic.StableHlo

variable {F : FTy → Type} [FloatOps F]

macro "open_tail" : tactic => `(tactic| (
  simp only [tailOps, hostOps1, hostOps1_1, hostOps1_2, hostOps1_3, hostOps1_4, hostOps1_5, hostOps1_6, hostOps1_7, hostOps1_8,
    hostOps1_9, hostOps1_10, hostOps1_11, hostOps1_12, List.flatten_cons, List.flatten_nil, List.append_nil, List.cons_append,
    List.nil_append]))

set_option maxHeartbeats 4000000 in
/-- The first normalised adjacency. -/
theorem tail_S1 (W : Valuation τ sig (Elt F)) :
    after (tailOps (F := F)).flatten W (Proc.devRef .tc main_v22)
      = Tail.S1 (W (Proc.devRef .tc main_v0)) (W (Proc.devRef .tc main_arg1)) := by
  open_tail
  after_results_simp
  rfl

set_option maxHeartbeats 8000000 in
/-- The second normalised adjacency. -/
theorem tail_S2 (W : Valuation τ sig (Elt F)) :
    after (tailOps (F := F)).flatten W (Proc.devRef .tc main_v53)
      = Tail.S2 (W (Proc.devRef .tc main_v0)) (W (Proc.devRef .tc main_arg1)) (W (Proc.devRef .tc main_arg2)) (W (Proc.devRef .tc main_arg3)) := by
  open_tail
  after_results_simp
  rfl

set_option maxHeartbeats 8000000 in
/-- The second layer's output. -/
theorem tail_l2 (W : Valuation τ sig (Elt F)) :
    after (tailOps (F := F)).flatten W (Proc.devRef .tc main_v62)
      = Tail.l2 (W (Proc.devRef .tc main_v0)) (W (Proc.devRef .tc main_arg1)) (W (Proc.devRef .tc main_arg2)) (W (Proc.devRef .tc main_arg3))
          (W (Proc.devRef .tc main_arg4)) (W (Proc.devRef .tc main_arg5)) := by
  open_tail
  after_results_simp
  rfl

end Cert.KernelIdeal.Mean

end
-- ==== Proof.Ideal.Value.lean ====
/-
  What the batch-mean program computes: the accumulator after point n is the running sum
      sumTo n = ((0 + Σ₃₂ X₀) + Σ₃₂ X₁) + … + Σ₃₂ Xₙ        (Xₜ the batch block of rows 32t … 32t+31),
  by induction on the point; the one write-back, at the last point, writes `sumTo 63 · 2⁻¹¹` over the whole [63, 2048]
  result array; and the later lines compute the tail functions of that array and the small arguments. So every
  execution ends with the three results at `l2`, `S1`, `S2` of `sumTo 63 · 2⁻¹¹`, the arguments unchanged.
-/
import proofs.«101755_j52673478918326_1_alg».proof.Proof.Ideal.Pieces
import proofs.«101755_j52673478918326_1_alg».proof.Proof.KernelTail
import Idealize.ShloMosaic.Lib.Pipeline.Value

set_option maxRecDepth 16384

noncomputable section

namespace Cert.KernelIdeal.Mean

open Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The running sum after point `n`: the zero block plus the first block's row sum, then each later block's added. -/
def sumTo (c : Dev nD) : (n : ℕ) → n < cfg0.N → Vec F S63x2048 .f32
  | 0, h => k0_pay2 (k0_pay1 (F := F)) (iblk m c 0 ⟨0, h⟩)
  | n + 1, h => k0_pay2 (sumTo c n (Nat.lt_of_succ_lt h)) (iblk m c 0 ⟨n + 1, h⟩)

/-- The accumulator after point `n` IS the running sum: by induction on the point. -/
theorem accAt_eq (c : Dev nD) : ∀ (n : ℕ) (h : n < cfg0.N), accAt m c n h = sumTo m c n h
  | 0, h => (accAt_first m c ⟨0, h⟩ rfl).trans (accFirst_eq ..)
  | n + 1, h => by
    by_cases h1 : n + 1 = 63
    · rw [accAt_last m c ⟨n + 1, h⟩ (Nat.succ_ne_zero n) h1, accLast_eq]
      show k0_pay2 (accAt m c n _) _ = k0_pay2 (sumTo m c n _) _
      rw [accAt_eq c n]
    · rw [accAt_mid m c ⟨n + 1, h⟩ (Nat.succ_ne_zero n) h1, accMid_eq]
      show k0_pay2 (accAt m c n _) _ = k0_pay2 (sumTo m c n _) _
      rw [accAt_eq c n]

theorem lt63 : 63 < cfg0.N := by rw [show cfg0.N = 64 from N_0]; decide
/-- The last grid point. -/
abbrev tLast : Fin cfg0.N := ⟨63, lt63⟩

/-- The region's result: the running sum after the last point, scaled by 2⁻¹¹ — as contents of the result array, whose
    one block is the whole array. -/
abbrev result (c : Dev nD) : Buf (Elt F) ((c : Thread nD τ).loc main_v0) := k0_pay3 (sumTo m c 63 lt63)

/-- The one write-back, at point 63, writes it: block (0, 0) of the [63, 2048] array read through zero offsets is the array. -/
theorem flushed_eq (c : Dev nD) (t : Fin cfg0.N) (hf : (cfg0.win 1).flush t = true) :
    (dats m 0 c).flushed 1 t = ((cfg0.win 1).blk t).view.read (Elt F) (result m c) := by
  have hN : cfg0.N = 64 := N_0
  have h63 : t.val = 63 := by have := (flush0_1 t).mp hf; have := t.isLt; omega
  obtain rfl : t = tLast := Fin.ext h63
  show (cfg0.win 1).cut (grid0.coords tLast) ((dats m 0 c).after 1 tLast) = _
  rw [after_out, outAt_last m c tLast (by decide) rfl, outLast_eq]
  have e : accAt m c (tLast.val - 1) (pred_lt tLast) = sumTo m c 62 (Nat.lt_of_succ_lt lt63) := accAt_eq m c 62 _
  rw [e]
  have hz' : (fun a => win0_1.index tLast a * main_v0.ty.shape.size a) = fun _ => 0 := funext fun a => by fin_cases a <;> decide
  exact (Memref.read_access_unit_zero (Elt F) main_v0 hz' (fun a => by rw [congrFun hz' a]; simp) (result m c)).symm

/-- So the result array ends holding it: the last point's block covers the array. -/
theorem final_out (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v0).slice (win0_1.rect tLast)).set
      rw [View.set_slice_whole, Rect.mem_set_unit]
      intro a
      have h0 : (i 0 : Nat) < 63 := (i 0).isLt
      have h1 : (i 1 : Nat) < 2048 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 63 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 2048 from by decide +kernel]; omega⟩

/-- The buffer contents the later lines start from: the two arrays as the region left them, the rest as launched. -/
abbrev exitW (c : Dev nD) : Valuation τ sig (Elt F) :=
  Pipeline.withArrays spec0 c (V0 m c) fun w => (dats m 0 c).arrAt w cfg0.N

theorem exitW_v0 (c : Dev nD) : exitW m c (Proc.devRef .tc main_v0) = result m c :=
  (Pipeline.withArrays_arr spec0 launch0.win.arr_inj c _ _ 1).trans (final_out m c)

theorem exitW_of_ne (c : Dev nD) (b : Ref sig .tc) (hb : ∀ w, Pipeline.arrRef spec0 w ≠ b) :
    exitW m c (Proc.devRef .tc b) = m ((c : Thread nD τ).loc b) :=
  Pipeline.withArrays_of_ne _ c (V0 m c) _ b hb

/-- THE RUN, READ: every weakly fair execution terminates with the three results at the tail functions of the scaled
    running sum and the small arguments, and the six arguments unchanged. -/
theorem run_values : θ_run defs (onTc (τ := τ) (main (F := F))) ⟨m, fun _ => 0, ρ⟩ fun r => ∀ c : Dev nD,
      r.2.mem ((c.tc : Thread nD τ).loc main_v62)
          = Tail.l2 (result m c) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v22) = Tail.S1 (result m c) (m ((c.tc : Thread nD τ).loc main_arg1))
      ∧ r.2.mem ((c.tc : Thread nD τ).loc main_v53)
          = Tail.S2 (result m c) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  have hl2 : r.2.mem ((c.tc : Thread nD τ).loc main_v62)
      = Tail.l2 (exitW m c (Proc.devRef .tc main_v0)) (exitW m c (Proc.devRef .tc main_arg1)) (exitW m c (Proc.devRef .tc main_arg2))
          (exitW m c (Proc.devRef .tc main_arg3)) (exitW m c (Proc.devRef .tc main_arg4)) (exitW m c (Proc.devRef .tc main_arg5)) :=
    ((h c).2 main_v62 (Pipeline.mem_restRefs_of main_v62 (by decide) (by decide))).trans (tail_l2 (exitW m c))
  have hS1 : r.2.mem ((c.tc : Thread nD τ).loc main_v22)
      = Tail.S1 (exitW m c (Proc.devRef .tc main_v0)) (exitW m c (Proc.devRef .tc main_arg1)) :=
    ((h c).2 main_v22 (Pipeline.mem_restRefs_of main_v22 (by decide) (by decide))).trans (tail_S1 (exitW m c))
  have hS2 : r.2.mem ((c.tc : Thread nD τ).loc main_v53)
      = Tail.S2 (exitW m c (Proc.devRef .tc main_v0)) (exitW m c (Proc.devRef .tc main_arg1)) (exitW m c (Proc.devRef .tc main_arg2))
          (exitW m c (Proc.devRef .tc main_arg3)) :=
    ((h c).2 main_v53 (Pipeline.mem_restRefs_of main_v53 (by decide) (by decide))).trans (tail_S2 (exitW m c))
  have e0 := exitW_v0 m c
  have e1 := exitW_of_ne m c main_arg1 (by decide)
  have e2 := exitW_of_ne m c main_arg2 (by decide)
  have e3 := exitW_of_ne m c main_arg3 (by decide)
  have e4 := exitW_of_ne m c main_arg4 (by decide)
  have e5 := exitW_of_ne m c main_arg5 (by decide)
  rw [e0, e1, e2, e3, e4, e5] at hl2
  rw [e0, e1] at hS1
  rw [e0, e1, e2, e3] at hS2
  exact ⟨hl2, hS1, hS2,
    ((h c).1 0).trans (((dats m 0 c).arrAt_in 0 rfl _).trans ((A_eq m c 0).trans (V_main_arg0 m c))),
    ((h c).2 main_arg1 (Pipeline.mem_restRefs_of main_arg1 (by decide) (by decide))).trans (kept_of m (dats m) c main_arg1 tail_keeps_arg1 (by decide)),
    ((h c).2 main_arg2 (Pipeline.mem_restRefs_of main_arg2 (by decide) (by decide))).trans (kept_of m (dats m) c main_arg2 tail_keeps_arg2 (by decide)),
    ((h c).2 main_arg3 (Pipeline.mem_restRefs_of main_arg3 (by decide) (by decide))).trans (kept_of m (dats m) c main_arg3 tail_keeps_arg3 (by decide)),
    ((h c).2 main_arg4 (Pipeline.mem_restRefs_of main_arg4 (by decide) (by decide))).trans (kept_of m (dats m) c main_arg4 tail_keeps_arg4 (by decide)),
    ((h c).2 main_arg5 (Pipeline.mem_restRefs_of main_arg5 (by decide) (by decide))).trans (kept_of m (dats m) c main_arg5 tail_keeps_arg5 (by decide))⟩

end Cert.KernelIdeal.Mean

end
-- ==== Proof.RefOps.lean ====
/-
  The reference program's @main as ONE list of its 101 host operations, in program order: @main's own lines and, at
  each call of a module-local function (the trace, the two selects, the two rectifiers), the callee's lines over that
  call's buffers. The first four compute the batch mean (a sum over axis 0, then a division by 2048); the rest are the
  two adjacency normalisations and the two graph layers.
-/
import proofs.«101755_j52673478918326_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 101 operations, in order. -/
abbrev ops : List (HloOp τ sig (Elt F)) :=
  [ StableHlo.nullary main_cst (constant S_ .f32 0x00000000#32),
    StableHlo.binary main_arg0 main_cst main_v0 ((fun x v => Host.reduceAdd x v reducesTo_S2048x63x2048_S63x2048_d0 h_S_) : (⟨S2048x63x2048, .f32⟩ : BufTy).Contents (Elt F) → (⟨S_, .f32⟩ : BufTy).Contents (Elt F) → (⟨S63x2048, .f32⟩ : BufTy).Contents (Elt F)),
    StableHlo.nullary main_cst_0 (constant S_ .f32 0x45000000#32),
    StableHlo.unary main_cst_0 main_v1 (broadcastInDim S63x2048 ![] bcast_S_S63x2048 : (⟨S_, .f32⟩ : BufTy).Contents (Elt F) → (⟨S63x2048, .f32⟩ : BufTy).Contents (Elt F)),
    StableHlo.binary main_v0 main_v1 main_v2 (Host.divf : (⟨S63x2048, .f32⟩ : BufTy).Contents (Elt F) → (⟨S63x2048, .f32⟩ : BufTy).Contents (Elt F) → (⟨S63x2048, .f32⟩ : BufTy).Contents (Elt F)),
    StableHlo.unary main_v2 main_v3 ((transpose S2048x63 [1, 0] · transposes_S63x2048_S2048x63_1_0) : (⟨S63x2048, .f32⟩ : BufTy).Contents (Elt F) → (⟨S2048x63, .f32⟩ : BufTy).Contents (Elt F)),
    StableHlo.binary main_v2 main_v3 main_v4 ((fun l r => Host.dotGeneral dot_S63x2048_S2048x63_S63x63_1_0_0_1_n_n none l r) : (⟨S63x2048, .f32⟩ : BufTy).Contents (Elt F) → (⟨S2048x63, .f32⟩ : BufTy).Contents (Elt F) → (⟨S63x63, .f32⟩ : BufTy).Contents (Elt F)),
    StableHlo.nullary main_cst_1 (constant S_ .f32 0xFF800000#32),
    StableHlo.binary main_v4 main_cst_1 main_v5 ((fun x v => Host.reduce FloatOps.maximumf x v reducesTo_S63x63_S_d0_1 h_S_) : (⟨S63x63, .f32⟩ : BufTy).Contents (Elt F) → (⟨S_, .f32⟩ : BufTy).Contents (Elt F) → (⟨S_, .f32⟩ : BufTy).Contents (Elt F)),
    StableHlo.nullary main_cst_2 (constant S_ .f32 0x7F800000#32),
    StableHlo.binary main_v4 main_cst_2 main_v6 ((fun x v => Host.reduce FloatOps.minimumf x v reducesTo_S63x63_S_d0_1 h_S_) : (⟨S63x63, .f32⟩ : BufTy).Contents (Elt F) → (⟨S_, .f32⟩ : BufTy).Contents (Elt F) → (⟨S_, .f32⟩ : BufTy).Contents (Elt F)),
    StableHlo.unary main_v5 main_v7 (broadcastInDim S63x63 ![] bcast_S_S63x63 : (⟨S_, .f32⟩ : BufTy).Contents (Elt F) → (⟨S63x63, .f32⟩ : BufTy).Contents (Elt F)),
    StableHlo.binary main_v4 main_v7 main_v8 (subf : (⟨S63x63, .f32⟩ : BufTy).Contents (Elt F) → (⟨S63x63, .f32⟩ : BufTy).Contents (Elt F) → (⟨S63x63, .f32⟩ : BufTy).Contents (Elt F)),
    StableHlo.binary main_v6 main_v5 main_v9 (subf : (⟨S_, .f32⟩ : BufTy).Contents (Elt F) → (⟨S_, .f32⟩ : BufTy).Contents (Elt F) → (⟨S_, .f32⟩ : BufTy).Contents (Elt F)),
    StableHlo.unary main_v9 main_v10 (broadcastInDim S63x63 ![] bcast_S_S63x63 : (⟨S_, .f32⟩ : BufTy).Contents (Elt F) → (⟨S63x63, .f32⟩ : BufTy).Contents (Elt F)),
    StableHlo.binary main_v8 main_v10 main_v11 (Host.divf : (⟨S63x63, .f32⟩ : BufTy).Contents (Elt F) → (⟨S63x63, .f32⟩ : BufTy).Contents (Elt F) → (⟨S63x63, .f32⟩ : BufTy).Contents (Elt F)),
    StableHlo.unary main_v11 main_v12 (Host.sqrt : (⟨S63x63, .f32⟩ : BufTy).Contents (Elt F) → (⟨S63x63, .f32⟩ : BufTy).Contents (Elt F)),
    StableHlo.TRef.nullary main_call0.v0 (iotaInDim S63x63 32 0),
    StableHlo.TRef.nullary main_call0.v1 (iotaInDim S63x63 32 1),
    StableHlo.TRef.nullary main_call0.c (constantI S_ 32 0#32),
    StableHlo.TRef.unary main_call0.c main_call0.v2 (broadcastInDim S63x63 ![] bcast_S_S63x63),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S63x63 ![] bcast_S_S63x63),
    StableHlo.TRef.ternary main_call0.v4 (.of main_v12 : StableHlo.TRef sig ⟨S63x63, .f32⟩) main_call0.v5 main_call0.call0.v0 select,
    StableHlo.TRef.nullary main_call0.cst_0 (constant S_ .f32 0x00000000#32),
    StableHlo.TRef.binary main_call0.call0.v0 main_call0.cst_0 main_call0.v7 (fun x v => Host.reduceAdd x v reducesTo_S63x63_S_d0_1 h_S_),
    StableHlo.unary main_v13 main_v14 (broadcastInDim S63x63 ![] bcast_S_S63x63 : (⟨S_, .f32⟩ : BufTy).Contents (Elt F) → (⟨S63x63, .f32⟩ : BufTy).Contents (Elt F)),
    StableHlo.binary main_v12 main_v14 main_v15 (Host.divf : (⟨S63x63, .f32⟩ : BufTy).Contents (Elt F) → (⟨S63x63, .f32⟩ : BufTy).Contents (Elt F) → (⟨S63x63, .f32⟩ : BufTy).Contents (Elt F)),
    StableHlo.binary main_arg1 main_v15 main_v16 (mulf : (⟨S63x63, .f32⟩ : BufTy).Contents (Elt F) → (⟨S63x63, .f32⟩ : BufTy).Contents (Elt F) → (⟨S63x63, .f32⟩ : BufTy).Contents (Elt F)),
    StableHlo.nullary main_cst_3 (constant S_ .f32 0x00000000#32),
    StableHlo.binary main_v16 main_cst_3 main_v17 ((fun x v => Host.reduceAdd x v reducesTo_S63x63_S63_d1 h_S_) : (⟨S63x63, .f32⟩ : BufTy).Contents (Elt F) → (⟨S_, .f32⟩ : BufTy).Contents (Elt F) → (⟨S63, .f32⟩ : BufTy).Contents (Elt F)),
    StableHlo.unary main_v17 main_v18 (broadcastInDim S63x1 ![0] bcast_S63_S63x1_0 : (⟨S63, .f32⟩ : BufTy).Contents (Elt F) → (⟨S63x1, .f32⟩ : BufTy).Contents (Elt F)),
    StableHlo.nullary main_cst_4 (constant S_ .f32 0x00000000#32),
    StableHlo.unary main_cst_4 main_v19 (broadcastInDim S63x1 ![] bcast_S_S63x1 : (⟨S_, .f32⟩ : BufTy).Contents (Elt F) → (⟨S63x1, .f32⟩ : BufTy).Contents (Elt F)),
    StableHlo.binary main_v18 main_v19 main_v20 (cmpf .oeq : (⟨S63x1, .f32⟩ : BufTy).Contents (Elt F) → (⟨S63x1, .f32⟩ : BufTy).Contents (Elt F) → (⟨S63x1, .i1⟩ : BufTy).Contents (Elt F)),
    StableHlo.nullary main_cst_5 (constant S_ .f32 0x3F800000#32),
    StableHlo.unary main_cst_5 main_v21 (broadcastInDim S63x1 ![] bcast_S_S63x1 : (⟨S_, .f32⟩ : BufTy).Contents (Elt F) → (⟨S63x1, .f32⟩ : BufTy).Contents (Elt F)),
    StableHlo.TRef.ternary (.of main_v20 : StableHlo.TRef sig ⟨S63x1, .i1⟩) (.of main_v21 : StableHlo.TRef sig ⟨S63x1, .f32⟩) (.of main_v18 : StableHlo.TRef sig ⟨S63x1, .f32⟩) main_call1.v0 select,
    StableHlo.unary main_v22 main_v23 (broadcastInDim S63x63 ![0, 1] bcast_S63x1_S63x63_0_1 : (⟨S63x1, .f32⟩ : BufTy).Contents (Elt F) → (⟨S63x63, .f32⟩ : BufTy).Contents (Elt F)),
    StableHlo.binary main_v16 main_v23 main_v24 (Host.divf : (⟨S63x63, .f32⟩ : BufTy).Contents (Elt F) → (⟨S63x63, .f32⟩ : BufTy).Contents (Elt F) → (⟨S63x63, .f32⟩ : BufTy).Contents (Elt F)),
    StableHlo.unary main_arg2 main_v25 ((transpose S2048x1024 [1, 0] · transposes_S1024x2048_S2048x1024_1_0) : (⟨S1024x2048, .f32⟩ : BufTy).Contents (Elt F) → (⟨S2048x1024, .f32⟩ : BufTy).Contents (Elt F)),
    StableHlo.binary main_v2 main_v25 main_v26 ((fun l r => Host.dotGeneral dot_S63x2048_S2048x1024_S63x1024_1_0_0_1_n_n none l r) : (⟨S63x2048, .f32⟩ : BufTy).Contents (Elt F) → (⟨S2048x1024, .f32⟩ : BufTy).Contents (Elt F) → (⟨S63x1024, .f32⟩ : BufTy).Contents (Elt F)),
    StableHlo.unary main_arg3 main_v27 (broadcastInDim S1x1024 ![1] bcast_S1024_S1x1024_1 : (⟨S1024, .f32⟩ : BufTy).Contents (Elt F) → (⟨S1x1024, .f32⟩ : BufTy).Contents (Elt F)),
    StableHlo.unary main_v27 main_v28 (broadcastInDim S63x1024 ![0, 1] bcast_S1x1024_S63x1024_0_1 : (⟨S1x1024, .f32⟩ : BufTy).Contents (Elt F) → (⟨S63x1024, .f32⟩ : BufTy).Contents (Elt F)),
    StableHlo.binary main_v26 main_v28 main_v29 (addf : (⟨S63x1024, .f32⟩ : BufTy).Contents (Elt F) → (⟨S63x1024, .f32⟩ : BufTy).Contents (Elt F) → (⟨S63x1024, .f32⟩ : BufTy).Contents (Elt F)),
    StableHlo.TRef.nullary main_call2.cst (constant S_ .f32 0x00000000#32),
    StableHlo.TRef.unary main_call2.cst main_call2.v0 (broadcastInDim S63x1024 ![] bcast_S_S63x1024),
    StableHlo.TRef.binary (.of main_v29 : StableHlo.TRef sig ⟨S63x1024, .f32⟩) main_call2.v0 main_call2.v1 maximumf,
    StableHlo.reshape main_v30 main_v31 rfl shapeCasts_S63x1024_S1024x63,
    StableHlo.unary main_v31 main_v32 ((transpose S63x1024 [1, 0] · transposes_S1024x63_S63x1024_1_0) : (⟨S1024x63, .f32⟩ : BufTy).Contents (Elt F) → (⟨S63x1024, .f32⟩ : BufTy).Contents (Elt F)),
    StableHlo.binary main_v24 main_v32 main_v33 ((fun l r => Host.dotGeneral dot_S63x63_S63x1024_S63x1024_1_0_0_1_n_n none l r) : (⟨S63x63, .f32⟩ : BufTy).Contents (Elt F) → (⟨S63x1024, .f32⟩ : BufTy).Contents (Elt F) → (⟨S63x1024, .f32⟩ : BufTy).Contents (Elt F)),
    StableHlo.unary main_v33 main_v34 ((transpose S1024x63 [1, 0] · transposes_S63x1024_S1024x63_1_0) : (⟨S63x1024, .f32⟩ : BufTy).Contents (Elt F) → (⟨S1024x63, .f32⟩ : BufTy).Contents (Elt F)),
    StableHlo.binary main_v33 main_v34 main_v35 ((fun l r => Host.dotGeneral dot_S63x1024_S1024x63_S63x63_1_0_0_1_n_n none l r) : (⟨S63x1024, .f32⟩ : BufTy).Contents (Elt F) → (⟨S1024x63, .f32⟩ : BufTy).Contents (Elt F) → (⟨S63x63, .f32⟩ : BufTy).Contents (Elt F)),
    StableHlo.nullary main_cst_6 (constant S_ .f32 0xFF800000#32),
    StableHlo.binary main_v35 main_cst_6 main_v36 ((fun x v => Host.reduce FloatOps.maximumf x v reducesTo_S63x63_S_d0_1 h_S_) : (⟨S63x63, .f32⟩ : BufTy).Contents (Elt F) → (⟨S_, .f32⟩ : BufTy).Contents (Elt F) → (⟨S_, .f32⟩ : BufTy).Contents (Elt F)),
    StableHlo.nullary main_cst_7 (constant S_ .f32 0x7F800000#32),
    StableHlo.binary main_v35 main_cst_7 main_v37 ((fun x v => Host.reduce FloatOps.minimumf x v reducesTo_S63x63_S_d0_1 h_S_) : (⟨S63x63, .f32⟩ : BufTy).Contents (Elt F) → (⟨S_, .f32⟩ : BufTy).Contents (Elt F) → (⟨S_, .f32⟩ : BufTy).Contents (Elt F)),
    StableHlo.unary main_v36 main_v38 (broadcastInDim S63x63 ![] bcast_S_S63x63 : (⟨S_, .f32⟩ : BufTy).Contents (Elt F) → (⟨S63x63, .f32⟩ : BufTy).Contents (Elt F)),
    StableHlo.binary main_v35 main_v38 main_v39 (subf : (⟨S63x63, .f32⟩ : BufTy).Contents (Elt F) → (⟨S63x63, .f32⟩ : BufTy).Contents (Elt F) → (⟨S63x63, .f32⟩ : BufTy).Contents (Elt F)),
    StableHlo.binary main_v37 main_v36 main_v40 (subf : (⟨S_, .f32⟩ : BufTy).Contents (Elt F) → (⟨S_, .f32⟩ : BufTy).Contents (Elt F) → (⟨S_, .f32⟩ : BufTy).Contents (Elt F)),
    StableHlo.unary main_v40 main_v41 (broadcastInDim S63x63 ![] bcast_S_S63x63 : (⟨S_, .f32⟩ : BufTy).Contents (Elt F) → (⟨S63x63, .f32⟩ : BufTy).Contents (Elt F)),
    StableHlo.binary main_v39 main_v41 main_v42 (Host.divf : (⟨S63x63, .f32⟩ : BufTy).Contents (Elt F) → (⟨S63x63, .f32⟩ : BufTy).Contents (Elt F) → (⟨S63x63, .f32⟩ : BufTy).Contents (Elt F)),
    StableHlo.unary main_v42 main_v43 (Host.sqrt : (⟨S63x63, .f32⟩ : BufTy).Contents (Elt F) → (⟨S63x63, .f32⟩ : BufTy).Contents (Elt F)),
    StableHlo.TRef.nullary main_call3.v0 (iotaInDim S63x63 32 0),
    StableHlo.TRef.nullary main_call3.v1 (iotaInDim S63x63 32 1),
    StableHlo.TRef.nullary main_call3.c (constantI S_ 32 0#32),
    StableHlo.TRef.unary main_call3.c main_call3.v2 (broadcastInDim S63x63 ![] bcast_S_S63x63),
    StableHlo.TRef.binary main_call3.v0 main_call3.v2 main_call3.v3 addi,
    StableHlo.TRef.binary main_call3.v3 main_call3.v1 main_call3.v4 (cmpi .eq),
    StableHlo.TRef.nullary main_call3.cst (constant S_ .f32 0x00000000#32),
    StableHlo.TRef.unary main_call3.cst main_call3.v5 (broadcastInDim S63x63 ![] bcast_S_S63x63),
    StableHlo.TRef.ternary main_call3.v4 (.of main_v43 : StableHlo.TRef sig ⟨S63x63, .f32⟩) main_call3.v5 main_call3.call0.v0 select,
    StableHlo.TRef.nullary main_call3.cst_0 (constant S_ .f32 0x00000000#32),
    StableHlo.TRef.binary main_call3.call0.v0 main_call3.cst_0 main_call3.v7 (fun x v => Host.reduceAdd x v reducesTo_S63x63_S_d0_1 h_S_),
    StableHlo.unary main_v44 main_v45 (broadcastInDim S63x63 ![] bcast_S_S63x63 : (⟨S_, .f32⟩ : BufTy).Contents (Elt F) → (⟨S63x63, .f32⟩ : BufTy).Contents (Elt F)),
    StableHlo.binary main_v43 main_v45 main_v46 (Host.divf : (⟨S63x63, .f32⟩ : BufTy).Contents (Elt F) → (⟨S63x63, .f32⟩ : BufTy).Contents (Elt F) → (⟨S63x63, .f32⟩ : BufTy).Contents (Elt F)),
    StableHlo.binary main_arg1 main_v46 main_v47 (mulf : (⟨S63x63, .f32⟩ : BufTy).Contents (Elt F) → (⟨S63x63, .f32⟩ : BufTy).Contents (Elt F) → (⟨S63x63, .f32⟩ : BufTy).Contents (Elt F)),
    StableHlo.nullary main_cst_8 (constant S_ .f32 0x00000000#32),
    StableHlo.binary main_v47 main_cst_8 main_v48 ((fun x v => Host.reduceAdd x v reducesTo_S63x63_S63_d1 h_S_) : (⟨S63x63, .f32⟩ : BufTy).Contents (Elt F) → (⟨S_, .f32⟩ : BufTy).Contents (Elt F) → (⟨S63, .f32⟩ : BufTy).Contents (Elt F)),
    StableHlo.unary main_v48 main_v49 (broadcastInDim S63x1 ![0] bcast_S63_S63x1_0 : (⟨S63, .f32⟩ : BufTy).Contents (Elt F) → (⟨S63x1, .f32⟩ : BufTy).Contents (Elt F)),
    StableHlo.nullary main_cst_9 (constant S_ .f32 0x00000000#32),
    StableHlo.unary main_cst_9 main_v50 (broadcastInDim S63x1 ![] bcast_S_S63x1 : (⟨S_, .f32⟩ : BufTy).Contents (Elt F) → (⟨S63x1, .f32⟩ : BufTy).Contents (Elt F)),
    StableHlo.binary main_v49 main_v50 main_v51 (cmpf .oeq : (⟨S63x1, .f32⟩ : BufTy).Contents (Elt F) → (⟨S63x1, .f32⟩ : BufTy).Contents (Elt F) → (⟨S63x1, .i1⟩ : BufTy).Contents (Elt F)),
    StableHlo.nullary main_cst_10 (constant S_ .f32 0x3F800000#32),
    StableHlo.unary main_cst_10 main_v52 (broadcastInDim S63x1 ![] bcast_S_S63x1 : (⟨S_, .f32⟩ : BufTy).Contents (Elt F) → (⟨S63x1, .f32⟩ : BufTy).Contents (Elt F)),
    StableHlo.TRef.ternary (.of main_v51 : StableHlo.TRef sig ⟨S63x1, .i1⟩) (.of main_v52 : StableHlo.TRef sig ⟨S63x1, .f32⟩) (.of main_v49 : StableHlo.TRef sig ⟨S63x1, .f32⟩) main_call4.v0 select,
    StableHlo.unary main_v53 main_v54 (broadcastInDim S63x63 ![0, 1] bcast_S63x1_S63x63_0_1 : (⟨S63x1, .f32⟩ : BufTy).Contents (Elt F) → (⟨S63x63, .f32⟩ : BufTy).Contents (Elt F)),
    StableHlo.binary main_v47 main_v54 main_v55 (Host.divf : (⟨S63x63, .f32⟩ : BufTy).Contents (Elt F) → (⟨S63x63, .f32⟩ : BufTy).Contents (Elt F) → (⟨S63x63, .f32⟩ : BufTy).Contents (Elt F)),
    StableHlo.unary main_arg4 main_v56 ((transpose S1024x300 [1, 0] · transposes_S300x1024_S1024x300_1_0) : (⟨S300x1024, .f32⟩ : BufTy).Contents (Elt F) → (⟨S1024x300, .f32⟩ : BufTy).Contents (Elt F)),
    StableHlo.binary main_v33 main_v56 main_v57 ((fun l r => Host.dotGeneral dot_S63x1024_S1024x300_S63x300_1_0_0_1_n_n none l r) : (⟨S63x1024, .f32⟩ : BufTy).Contents (Elt F) → (⟨S1024x300, .f32⟩ : BufTy).Contents (Elt F) → (⟨S63x300, .f32⟩ : BufTy).Contents (Elt F)),
    StableHlo.unary main_arg5 main_v58 (broadcastInDim S1x300 ![1] bcast_S300_S1x300_1 : (⟨S300, .f32⟩ : BufTy).Contents (Elt F) → (⟨S1x300, .f32⟩ : BufTy).Contents (Elt F)),
    StableHlo.unary main_v58 main_v59 (broadcastInDim S63x300 ![0, 1] bcast_S1x300_S63x300_0_1 : (⟨S1x300, .f32⟩ : BufTy).Contents (Elt F) → (⟨S63x300, .f32⟩ : BufTy).Contents (Elt F)),
    StableHlo.binary main_v57 main_v59 main_v60 (addf : (⟨S63x300, .f32⟩ : BufTy).Contents (Elt F) → (⟨S63x300, .f32⟩ : BufTy).Contents (Elt F) → (⟨S63x300, .f32⟩ : BufTy).Contents (Elt F)),
    StableHlo.TRef.nullary main_call5.cst (constant S_ .f32 0x00000000#32),
    StableHlo.TRef.unary main_call5.cst main_call5.v0 (broadcastInDim S63x300 ![] bcast_S_S63x300),
    StableHlo.TRef.binary (.of main_v60 : StableHlo.TRef sig ⟨S63x300, .f32⟩) main_call5.v0 main_call5.v1 maximumf,
    StableHlo.reshape main_v61 main_v62 rfl shapeCasts_S63x300_S300x63,
    StableHlo.unary main_v62 main_v63 ((transpose S63x300 [1, 0] · transposes_S300x63_S63x300_1_0) : (⟨S300x63, .f32⟩ : BufTy).Contents (Elt F) → (⟨S63x300, .f32⟩ : BufTy).Contents (Elt F)),
    StableHlo.binary main_v55 main_v63 main_v64 ((fun l r => Host.dotGeneral dot_S63x63_S63x300_S63x300_1_0_0_1_n_n none l r) : (⟨S63x63, .f32⟩ : BufTy).Contents (Elt F) → (⟨S63x300, .f32⟩ : BufTy).Contents (Elt F) → (⟨S63x300, .f32⟩ : BufTy).Contents (Elt F)) ]

/-- Each touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
   binary_bufs_sub .., nullary_bufs_sub .., binary_bufs_sub .., nullary_bufs_sub .., binary_bufs_sub .., unary_bufs_sub ..,
   binary_bufs_sub .., binary_bufs_sub .., unary_bufs_sub .., binary_bufs_sub .., unary_bufs_sub .., nullary_bufs_sub ..,
   nullary_bufs_sub .., nullary_bufs_sub .., unary_bufs_sub .., binary_bufs_sub .., binary_bufs_sub .., nullary_bufs_sub ..,
   unary_bufs_sub .., ternary_bufs_sub .., nullary_bufs_sub .., binary_bufs_sub .., unary_bufs_sub .., binary_bufs_sub ..,
   binary_bufs_sub .., nullary_bufs_sub .., binary_bufs_sub .., unary_bufs_sub .., nullary_bufs_sub .., unary_bufs_sub ..,
   binary_bufs_sub .., nullary_bufs_sub .., unary_bufs_sub .., ternary_bufs_sub .., unary_bufs_sub .., binary_bufs_sub ..,
   unary_bufs_sub .., binary_bufs_sub .., unary_bufs_sub .., unary_bufs_sub .., binary_bufs_sub .., nullary_bufs_sub ..,
   unary_bufs_sub .., binary_bufs_sub .., reshape_bufs_sub .., unary_bufs_sub .., binary_bufs_sub .., unary_bufs_sub ..,
   binary_bufs_sub .., nullary_bufs_sub .., binary_bufs_sub .., nullary_bufs_sub .., binary_bufs_sub .., unary_bufs_sub ..,
   binary_bufs_sub .., binary_bufs_sub .., unary_bufs_sub .., binary_bufs_sub .., unary_bufs_sub .., nullary_bufs_sub ..,
   nullary_bufs_sub .., nullary_bufs_sub .., unary_bufs_sub .., binary_bufs_sub .., binary_bufs_sub .., nullary_bufs_sub ..,
   unary_bufs_sub .., ternary_bufs_sub .., nullary_bufs_sub .., binary_bufs_sub .., unary_bufs_sub .., binary_bufs_sub ..,
   binary_bufs_sub .., nullary_bufs_sub .., binary_bufs_sub .., unary_bufs_sub .., nullary_bufs_sub .., unary_bufs_sub ..,
   binary_bufs_sub .., nullary_bufs_sub .., unary_bufs_sub .., ternary_bufs_sub .., unary_bufs_sub .., binary_bufs_sub ..,
   unary_bufs_sub .., binary_bufs_sub .., unary_bufs_sub .., unary_bufs_sub .., binary_bufs_sub .., nullary_bufs_sub ..,
   unary_bufs_sub .., binary_bufs_sub .., reshape_bufs_sub .., unary_bufs_sub .., binary_bufs_sub ..⟩

end Cert.ReferenceIdeal.Run

end
-- ==== Proof.RefRun.lean ====
/-
  The reference program's run, read: @main is the straight line of its operations (each call unfolded at its site), so
  every weakly fair execution terminates with each buffer at the operations' fold over the launch contents; folded
  over any contents `W` the list leaves, in the three result buffers, the tail functions `S1`, `S2`, `l2` of
  `mean (W main_arg0)` — the sum of the batch array over its first axis divided by 2048 — and of the five small
  arguments, and leaves the six arguments as they were.
-/
import proofs.«101755_j52673478918326_1_alg».proof.Proof.RefOps
import proofs.«101755_j52673478918326_1_alg».proof.Proof.Tail
import Idealize.ShloMosaic.Lib.Pipeline.Regions

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main is that straight line: its two halves in order, the functions' definitions unfolded at their calls and the
    records at their fields; both sides are one chain of steps once sequencing is reassociated, which is definitional
    (a step followed by a continuation is the step with the continuation appended). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The reference's batch mean: the sum over the first axis (from zero) divided by 2048. -/
def mean (x : (⟨S2048x63x2048, .f32⟩ : BufTy).Contents (Elt F)) : (⟨S63x2048, .f32⟩ : BufTy).Contents (Elt F) :=
  Host.divf (Host.reduceAdd x (constant S_ .f32 0x00000000#32) reducesTo_S2048x63x2048_S63x2048_d0 h_S_)
    (broadcastInDim S63x2048 ![] bcast_S_S63x2048 (constant S_ .f32 0x45000000#32))

open Cert.KernelIdeal in
set_option maxHeartbeats 8000000 in
/-- The first normalised adjacency, of the reference's mean. -/
theorem ref_S1 (W : Valuation τ sig (Elt F)) :
    after (ops (F := F)) W (Proc.devRef .tc main_v24)
      = Tail.S1 (mean (W (Proc.devRef .tc main_arg0))) (W (Proc.devRef .tc main_arg1)) := by
  after_results_simp
  rfl

open Cert.KernelIdeal in
set_option maxHeartbeats 8000000 in
/-- The second normalised adjacency. -/
theorem ref_S2 (W : Valuation τ sig (Elt F)) :
    after (ops (F := F)) W (Proc.devRef .tc main_v55)
      = Tail.S2 (mean (W (Proc.devRef .tc main_arg0))) (W (Proc.devRef .tc main_arg1)) (W (Proc.devRef .tc main_arg2)) (W (Proc.devRef .tc main_arg3)) := by
  after_results_simp
  rfl

open Cert.KernelIdeal in
set_option maxHeartbeats 8000000 in
/-- The second layer's output. -/
theorem ref_l2 (W : Valuation τ sig (Elt F)) :
    after (ops (F := F)) W (Proc.devRef .tc main_v64)
      = Tail.l2 (mean (W (Proc.devRef .tc main_arg0))) (W (Proc.devRef .tc main_arg1)) (W (Proc.devRef .tc main_arg2)) (W (Proc.devRef .tc main_arg3))
          (W (Proc.devRef .tc main_arg4)) (W (Proc.devRef .tc main_arg5)) := by
  after_results_simp
  rfl

/-- No operation writes an argument. -/
theorem ref_arg0 (W : Valuation τ sig (Elt F)) : after (ops (F := F)) W (Proc.devRef .tc main_arg0) = W (Proc.devRef .tc main_arg0) := by after_results_simp
theorem ref_arg1 (W : Valuation τ sig (Elt F)) : after (ops (F := F)) W (Proc.devRef .tc main_arg1) = W (Proc.devRef .tc main_arg1) := by after_results_simp
theorem ref_arg2 (W : Valuation τ sig (Elt F)) : after (ops (F := F)) W (Proc.devRef .tc main_arg2) = W (Proc.devRef .tc main_arg2) := by after_results_simp
theorem ref_arg3 (W : Valuation τ sig (Elt F)) : after (ops (F := F)) W (Proc.devRef .tc main_arg3) = W (Proc.devRef .tc main_arg3) := by after_results_simp
theorem ref_arg4 (W : Valuation τ sig (Elt F)) : after (ops (F := F)) W (Proc.devRef .tc main_arg4) = W (Proc.devRef .tc main_arg4) := by after_results_simp
theorem ref_arg5 (W : Valuation τ sig (Elt F)) : after (ops (F := F)) W (Proc.devRef .tc main_arg5) = W (Proc.devRef .tc main_arg5) := by after_results_simp

end Cert.ReferenceIdeal.Run

end
-- ==== Proof.MeanSum.lean ====
/-
  The one law that joins the two means. Over the extended reals addition is commutative and associative (an infinite
  term or a pair of opposite infinities changes nothing of that), so a sum of 2048 terms taken 32 at a time — zero plus
  the first 32, then each later block of 32 added — is the sum of all 2048; and a product with the real 1/2048 is the
  quotient by the real 2048, on every extended real. The float words 0x3A000000 and 0x45000000 denote exactly 2⁻¹¹ and 2¹¹.
-/
import Idealize.ShloMosaic.PureOps.Ideal
import Mathlib.Algebra.BigOperators.Group.Finset.Basic

noncomputable section

namespace Cert.MeanSum

open Idealize.ShloMosaic

/-- The kernel's scale word denotes the real 1/2048 (it is 2⁻¹¹ exactly). -/
theorem ofBits_inv2048 : Ideal.ofBits .f32 0x3A000000#32 = ((1 / 2048 : ℝ) : EReal) := by
  simp [Ideal.ofBits, Ideal.ieee, -EReal.coe_mul]; norm_num

/-- The reference's divisor word denotes the real 2048. -/
theorem ofBits_2048 : Ideal.ofBits .f32 0x45000000#32 = ((2048 : ℝ) : EReal) := by
  simp [Ideal.ofBits, Ideal.ieee, -EReal.coe_mul]; norm_num

/-- The sum built 32 terms at a time: zero plus the first 32 terms, then each later block of 32 added. -/
def blockSum (f : ℕ → EReal) : ℕ → EReal
  | 0 => 0 + ∑ b ∈ Finset.range 32, f (32 * 0 + b)
  | n + 1 => blockSum f n + ∑ b ∈ Finset.range 32, f (32 * (n + 1) + b)

/-- After block `n` it is the sum of the first 32 (n + 1) terms. -/
theorem blockSum_eq (f : ℕ → EReal) : ∀ n, blockSum f n = ∑ k ∈ Finset.range (32 * (n + 1)), f k
  | 0 => by simp [blockSum]
  | n + 1 => by
    rw [blockSum, blockSum_eq f n, show 32 * (n + 1 + 1) = 32 * (n + 1) + 32 by ring, Finset.sum_range_add]

/-- All 64 blocks, scaled by 1/2048, are the quotient by 2048 of zero plus the sum of the 2048 terms. -/
theorem scaled_eq (f : ℕ → EReal) :
    blockSum f 63 * ((1 / 2048 : ℝ) : EReal) = Ideal.div (0 + ∑ k ∈ Finset.range 2048, f k) ((2048 : ℝ) : EReal) := by
  rw [blockSum_eq, Ideal.div_coe (by norm_num : (2048 : ℝ) ≠ 0), zero_add]

end Cert.MeanSum

end
-- ==== Proof.MeanBridge.lean ====
/-
  The two means are one array. At `Ideal`, entry (p, q) of the kernel's result is
      ((0 + Σ_{b<32} X[b,p,q]) + Σ_{b<32} X[32+b,p,q] + … + Σ_{b<32} X[32·63+b,p,q]) · 2⁻¹¹
  — the accumulator's running sum after the last point, each block's rows summed by the lane reduction, the block at
  point t being rows 32t … 32t+31 of the batch array X — and entry (p, q) of the reference's mean is
      (0 + Σ_{k<2048} X[k,p,q]) / 2048:
  the same extended real, by the block-sum law. Finiteness of X is not used.
-/
import proofs.«101755_j52673478918326_1_alg».proof.Proof.Ideal.Value
import proofs.«101755_j52673478918326_1_alg».proof.Proof.RefRun
import proofs.«101755_j52673478918326_1_alg».proof.Proof.MeanSum
import Idealize.ShloMosaic.Lib.ValueIdx
import Idealize.ShloMosaic.PureOps.Ideal.Laws
import Mathlib.Algebra.BigOperators.Fin

set_option maxRecDepth 16384

noncomputable section

namespace Cert.Bridge

open Idealize.ShloMosaic Idealize.ShloMosaic.TcCoe Idealize.SL.Sem Idealize.ShloMosaic.ValueIdx
open Cert.MeanSum

/-- Column (p, q) of the batch array along the batch axis, as a sequence (zero past the end). -/
def col (X : (⟨3, ![2048, 63, 2048]⟩ : Shape).Idx → EReal) (p : Fin 63) (q : Fin 2048) (k : ℕ) : EReal :=
  if h : k < 2048 then X (ix3 ⟨k, h⟩ p q) else 0

/-! ## The kernel's side -/

section Kernel
open Cert.KernelIdeal Cert.KernelIdeal.Gen Cert.KernelIdeal.Mean

/-- The zero block. -/
theorem pay1_apply (p : Fin 63) (q : Fin 2048) : (k0_pay1 (F := Ideal)) (ix2 p q) = 0 := by
  unfold k0_pay1
  rw [shapeCast_self]
  exact Ideal.ofBits_zero_f32

/-- The index the lane reduction inserts down the batch axis of a block. -/
theorem lift32 (p : Fin 63) (q : Fin 2048) (k : Fin 32) :
    reduces_S32x63x2048_S63x2048.lift (ix2 p q) k = ix3 k p q :=
  funext fun a => Fin.ext (by match a with | ⟨0, _⟩ => rfl | ⟨1, _⟩ => rfl | ⟨2, _⟩ => rfl)

/-- `a + Σ₃₂ x`: the accumulator's entry plus the block's entries down the batch axis. -/
theorem pay2_apply (a : FVec Ideal S63x2048 .f32) (x : FVec Ideal S32x63x2048 .f32) (p : Fin 63) (q : Fin 2048) :
    k0_pay2 a x (ix2 p q) = a (ix2 p q) + ∑ b : Fin 32, x (ix3 b p q) := by
  unfold k0_pay2
  rw [shapeCast_self]
  refine congrArg (a (ix2 p q) + ·) ?_
  refine (Ideal.multiReduction_add_single x 0x00000000#32 reduces_S32x63x2048_S63x2048 (.inl rfl) rfl (ix2 p q)).trans ?_
  exact Finset.sum_congr rfl fun b _ => congrArg x (lift32 p q b)

/-- `a · 2⁻¹¹`. -/
theorem pay3_apply (a : FVec Ideal S63x2048 .f32) (p : Fin 63) (q : Fin 2048) :
    k0_pay3 a (ix2 p q) = a (ix2 p q) * ((1 / 2048 : ℝ) : EReal) := by
  unfold k0_pay3
  show a (ix2 p q) * Ideal.ofBits .f32 0x3A000000#32 = _
  rw [ofBits_inv2048]

variable (m : (ℓ : Loc nD τ sig) → Buf (Elt Ideal) ℓ)

/-- The batch window's block index at point `t` is (t, 0, 0) — decided over the 64 points. -/
theorem idx_in : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem blk_bound (t : Fin cfg0.N) (b : Fin 32) : 32 * t.val + b.val < 2048 := by
  have h1 : t.val < 64 := lt_of_lt_of_eq t.isLt (show cfg0.N = 64 from N_0)
  have h2 := b.isLt
  omega

/-- The batch window's block at point `t`, at its literal type. -/
abbrev xblk (c : Dev nD) (t : Fin cfg0.N) : FVec Ideal S32x63x2048 .f32 := iblk m c 0 t

/-- The block at point `t` is rows 32t … 32t+31 of the batch array. -/
theorem iblk_apply (c : Dev nD) (t : Fin cfg0.N) (b : Fin 32) (p : Fin 63) (q : Fin 2048) :
    xblk m c t (ix3 b p q)
      = m ((c : Thread nD τ).loc main_arg0) (ix3 ⟨32 * t.val + b.val, blk_bound t b⟩ p q) := by
  have hi := idx_in t
  unfold xblk iblk
  rw [View.read_apply]
  show m ((c : Thread nD τ).loc main_arg0) _ = m ((c : Thread nD τ).loc main_arg0) _
  congr 1
  funext a
  apply Fin.ext
  match a with
  | ⟨0, _⟩ => show win0_0.index t 0 * 32 + 1 * b.val = 32 * t.val + b.val; rw [hi.1]; omega
  | ⟨1, _⟩ => show win0_0.index t 1 * 63 + 1 * p.val = p.val; rw [hi.2.1]; omega
  | ⟨2, _⟩ => show win0_0.index t 2 * 2048 + 1 * q.val = q.val; rw [hi.2.2]; omega

/-- A block's column sum is 32 consecutive terms of the batch array's column. -/
theorem blk_sum (c : Dev nD) (t : Fin cfg0.N) (p : Fin 63) (q : Fin 2048) :
    ∑ b : Fin 32, xblk m c t (ix3 b p q)
      = ∑ b ∈ Finset.range 32, col (m ((c : Thread nD τ).loc main_arg0)) p q (32 * t.val + b) := by
  rw [← Fin.sum_univ_eq_sum_range (fun b => col (m ((c : Thread nD τ).loc main_arg0)) p q (32 * t.val + b)) 32]
  refine Finset.sum_congr rfl fun b _ => ?_
  rw [iblk_apply]
  unfold col
  rw [dif_pos (blk_bound t b)]

/-- The running sum after point `n`, at (p, q), is the column's block sum. -/
theorem sumTo_apply (c : Dev nD) : ∀ (n : ℕ) (h : n < cfg0.N) (p : Fin 63) (q : Fin 2048),
    sumTo m c n h (ix2 p q) = blockSum (col (m ((c : Thread nD τ).loc main_arg0)) p q) n
  | 0, h, p, q => by
    refine (pay2_apply (k0_pay1 (F := Ideal)) (xblk m c ⟨0, h⟩) p q).trans ?_
    rw [pay1_apply, blk_sum]
    rfl
  | n + 1, h, p, q => by
    refine (pay2_apply (sumTo m c n (Nat.lt_of_succ_lt h)) (xblk m c ⟨n + 1, h⟩) p q).trans ?_
    rw [sumTo_apply c n _ p q, blk_sum]
    rfl

/-- The kernel's result at (p, q): all 64 blocks of the column, scaled. -/
theorem result_apply (c : Dev nD) (p : Fin 63) (q : Fin 2048) :
    (result m c : FVec Ideal S63x2048 .f32) (ix2 p q)
      = blockSum (col (m ((c : Thread nD τ).loc main_arg0)) p q) 63 * ((1 / 2048 : ℝ) : EReal) := by
  refine (pay3_apply (sumTo m c 63 lt63) p q).trans ?_
  rw [sumTo_apply]

end Kernel

/-! ## The reference's side -/

section Reference
open Cert.ReferenceIdeal Cert.ReferenceIdeal.Gen Cert.ReferenceIdeal.Run

/-- The reference's mean at (p, q): zero plus the column's 2048 terms, divided by 2048. -/
theorem mean_apply (X : FVec Ideal S2048x63x2048 .f32) (p : Fin 63) (q : Fin 2048) :
    Run.mean (F := Ideal) X (ix2 p q) = Ideal.div (0 + ∑ k ∈ Finset.range 2048, col X p q k) ((2048 : ℝ) : EReal) := by
  have hR : S2048x63x2048.Reduces [0] S63x2048 := by decide
  show Ideal.div (Ideal.hostReduceAdd reducesTo_S2048x63x2048_S63x2048_d0 X (Ideal.ofBits .f32 0x00000000#32) (ix2 p q))
      (Ideal.ofBits .f32 0x45000000#32) = _
  rw [ofBits_2048, Ideal.ofBits_zero_f32, Ideal.hostReduceAdd_single _ hR]
  congr 2
  rw [← Fin.sum_univ_eq_sum_range (fun k => col X p q k) 2048]
  refine Finset.sum_congr rfl fun k _ => ?_
  have hk : (k : ℕ) < 2048 := k.isLt
  unfold col
  rw [dif_pos hk]
  exact congrArg X (funext fun a => Fin.ext (by match a with | ⟨0, _⟩ => rfl | ⟨1, _⟩ => rfl | ⟨2, _⟩ => rfl))

end Reference

/-- THE BRIDGE: the kernel's result array is the reference's mean of the same batch array. -/
theorem result_eq_mean (m : (ℓ : Loc Cert.KernelIdeal.nD Cert.KernelIdeal.τ Cert.KernelIdeal.sig) → Buf (Elt Ideal) ℓ)
    (c : Dev Cert.KernelIdeal.nD) :
    (Cert.KernelIdeal.Mean.result m c : FVec Ideal Cert.KernelIdeal.S63x2048 .f32)
      = Cert.ReferenceIdeal.Run.mean (m ((c : Thread Cert.KernelIdeal.nD Cert.KernelIdeal.τ).loc Cert.KernelIdeal.main_arg0)) := by
  funext j
  obtain ⟨p, q, rfl⟩ : ∃ (p : Fin 63) (q : Fin 2048), j = ix2 p q := ⟨j 0, j 1, eq_ix2 j⟩
  rw [result_apply, mean_apply, scaled_eq]

end Cert.Bridge

end
-- ==== Proof.lean ====
/-
  A batch mean by a pipelined accumulator against `jnp.mean`, followed on both sides by the same graph layers.

  The kernel sums a [2048, 63, 2048] array over its first axis 32 rows at a grid point — a [63, 2048] accumulator reset
  at the first of 64 points and added to at each — and stores the accumulator times 2⁻¹¹ at the last point; the
  reference sums all 2048 rows and divides by 2048. Both then apply the same 96 host operations (two adjacency
  normalisations of Gram matrices, two rectified linear layers) to that mean and five small arguments.

  Frames: the kernel's programs run by the pipeline's frame theorem for a region followed by host lines, the body
  proved once per control case (first, middle, last point) and the accumulator tracked between points; the reference is
  a straight line of host operations. Values: the accumulator after point n is the running block sum (induction on the
  point), the one write-back writes its scaled value over the result array, and each program's later lines compute the
  tail functions of its mean (`Tail.lean`, never opened). Over the extended reals the block-wise sum is the whole sum
  and a product with 2⁻¹¹ is the quotient by 2048, so the two means are one array and the results are equal. The ideal
  pass rewrote nothing, so `preserves` is trivial; finiteness of the inputs is not needed.
-/
import proofs.«101755_j52673478918326_1_alg».proof.Defs
import proofs.«101755_j52673478918326_1_alg».proof.Proof.Gen.Kernel
import proofs.«101755_j52673478918326_1_alg».proof.Proof.Gen.KernelIdeal
import proofs.«101755_j52673478918326_1_alg».proof.Proof.Gen.ReferenceIdeal
import proofs.«101755_j52673478918326_1_alg».proof.Proof.Gen.Pre_finite_inputs
import proofs.«101755_j52673478918326_1_alg».proof.Proof.Bits.Frame
import proofs.«101755_j52673478918326_1_alg».proof.Proof.Ideal.Frame
import proofs.«101755_j52673478918326_1_alg».proof.Proof.Ideal.Value
import proofs.«101755_j52673478918326_1_alg».proof.Proof.RefRun
import proofs.«101755_j52673478918326_1_alg».proof.Proof.MeanBridge

noncomputable section

namespace Cert.Proof

open Idealize.ShloMosaic Idealize.ShloMosaic.TcCoe Idealize.SL.Sem Idealize.ShloMosaic.StableHlo

/-- The word-level kernel program runs, and leaves its arguments unchanged. -/
theorem frame_k : Cert.frame_Kernel := fun m ρ _ => Cert.Kernel.Mean.frame m ρ

/-- So does its idealization. -/
theorem frame_ki : Cert.frame_KernelIdeal := fun m ρ _ => Cert.KernelIdeal.Mean.frame m ρ

/-- The reference is a straight line of host operations none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Run.ref_arg0 _), (h c Cert.ReferenceIdeal.main_arg1).trans (Cert.ReferenceIdeal.Run.ref_arg1 _),
     (h c Cert.ReferenceIdeal.main_arg2).trans (Cert.ReferenceIdeal.Run.ref_arg2 _), (h c Cert.ReferenceIdeal.main_arg3).trans (Cert.ReferenceIdeal.Run.ref_arg3 _),
     (h c Cert.ReferenceIdeal.main_arg4).trans (Cert.ReferenceIdeal.Run.ref_arg4 _), (h c Cert.ReferenceIdeal.main_arg5).trans (Cert.ReferenceIdeal.Run.ref_arg5 _)⟩)
    (Cert.ReferenceIdeal.Run.run_main (F := Ideal) m ρ)

/-- The ideal pass rewrote no operation. -/
theorem preserves : Cert.preserves_Kernel_KernelIdeal := trivial

/-- From memories agreeing on the six arguments both programs end with the tail functions of ONE mean: the kernel's
    scaled running sum is the reference's quotient (`Bridge.result_eq_mean`). -/
theorem algebraic : Cert.algebraic_KernelIdeal_ReferenceIdeal := by
  intro m ρ m' ρ' _ hagree
  refine ⟨_, _, _, Cert.KernelIdeal.Mean.run_values (F := Ideal) m ρ, ?_⟩
  refine (θ_run Cert.ReferenceIdeal.defs _ _).mono (fun r h c => ?_) (Cert.ReferenceIdeal.Run.run_main (F := Ideal) m' ρ')
  obtain ⟨h0, h1, h2, h3, h4, h5⟩ := hagree c
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have hb := Cert.Bridge.result_eq_mean m c
  refine ⟨(h c Cert.ReferenceIdeal.main_v64).trans ?_, (h c Cert.ReferenceIdeal.main_v24).trans ?_, (h c Cert.ReferenceIdeal.main_v55).trans ?_,
    (h c Cert.ReferenceIdeal.main_arg0).trans (Cert.ReferenceIdeal.Run.ref_arg0 _), (h c Cert.ReferenceIdeal.main_arg1).trans (Cert.ReferenceIdeal.Run.ref_arg1 _),
    (h c Cert.ReferenceIdeal.main_arg2).trans (Cert.ReferenceIdeal.Run.ref_arg2 _), (h c Cert.ReferenceIdeal.main_arg3).trans (Cert.ReferenceIdeal.Run.ref_arg3 _),
    (h c Cert.ReferenceIdeal.main_arg4).trans (Cert.ReferenceIdeal.Run.ref_arg4 _), (h c Cert.ReferenceIdeal.main_arg5).trans (Cert.ReferenceIdeal.Run.ref_arg5 _)⟩
  · rw [Cert.ReferenceIdeal.Run.ref_l2, e0, e1, e2, e3, e4, e5, ← hb]
  · rw [Cert.ReferenceIdeal.Run.ref_S1, e0, e1, ← hb]
  · rw [Cert.ReferenceIdeal.Run.ref_S2, e0, e1, e2, e3, ← hb]

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
